-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩
abbrev S8192 : Shape := ⟨1, ![8192]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  reducesTo_S8192x1024_S8192_d1 : S8192x1024.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := mulf main_arg0 main_arg0
  let main_cst_0 : FVec F S_ .f32 := constant S_ .f32 0x00000000#32
  let main_v5 : FVec F S8192 .f32 := (fun x v => Host.reduceAdd x v reducesTo_S8192x1024_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x1024 : Shape := ⟨2, ![8192, 1024]⟩
abbrev S2048x1 : Shape := ⟨2, ![2048, 1]⟩
abbrev S1x1 : Shape := ⟨2, ![1, 1]⟩
abbrev S2048x1024 : Shape := ⟨2, ![2048, 1024]⟩
abbrev S256x1024 : Shape := ⟨2, ![256, 1024]⟩
abbrev S2048 : Shape := ⟨1, ![2048]⟩
abbrev S256 : Shape := ⟨1, ![256]⟩
abbrev S256x1 : Shape := ⟨2, ![256, 1]⟩
abbrev S2048x256 : Shape := ⟨2, ![2048, 256]⟩
abbrev S1 : Shape := ⟨1, ![1]⟩
abbrev S_ : Shape := ⟨0, ![]⟩

abbrev nBuf : Space → Nat
  | .hbm => 21
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2048x1, .f32⟩
  | .hbm, ⟨2, _⟩ => ⟨S1x1, .f32⟩
  | .hbm, ⟨3, _⟩ => ⟨S2048, .f32⟩
  | .hbm, ⟨4, _⟩ => ⟨S_, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S2048x1024, .f32⟩
  | .local _ .vmem, ⟨1, _⟩ => ⟨S256x1024, .f32⟩
  | .local _ .vmem, ⟨2, _⟩ => ⟨S256x1024, .f32⟩
  | .local _ .vmem, ⟨3, _⟩ => ⟨S2048x1, .f32⟩
  | .local _ .vmem, ⟨4, _⟩ => ⟨S1x1, .f32⟩
  | .local _ .vmem, ⟨5, _⟩ => ⟨S2048x1024, .bf16⟩
  | .local _ .vmem, ⟨6, _⟩ => ⟨S2048x1, .f32⟩
  | .local _ .vmem, ⟨7, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v26 : BitVec 1 := Scalar.cmpi .eq arg0 c31_i32
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  broadcasts_S2048x1_S2048x1024 : S2048x1.Broadcasts S2048x1024
  bitsLt_bf16_f32 : FTy.bits .bf16 < FTy.bits .f32
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x1024 : S256x1.Broadcasts S256x1024
  reduces_S2048x256_S2048 : S2048x256.Reduces [1] S2048
  iota_S2048x256_d0_w32 : S2048x256.Iotas .tc 32 [0]
  iota_S2048x256_d1_w32 : S2048x256.Iotas .tc 32 [1]
  reduces_S2048x1_S1 : S2048x1.Reduces [0] S1
  shapeCasts_S1_S1x1 : S1.ShapeCasts S1x1
  shapeCasts_S2048x1_S2048 : S2048x1.ShapeCasts S2048
  bcast_S_S2048 : S_.BroadcastsInDim S2048 (![] : Fin 0 → Fin S2048.rank)
  reducesTo_S2048_S_d0 : S2048.ReducesTo [0] S_
  h_S_ : 0 < S_.numel
  shapeCasts_S1x1_S_ : S1x1.ShapeCasts S_
  dot_S2048x1024_S256x1024_S2048x256_1_1_0_0_n_n_wf : DotDims.WF S2048x1024 S256x1024 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .f32 = 32 ∨ (Rect.block (s := S2048x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf

abbrev win0_0 : Pipeline.Window sig grid0 :=
  Pipeline.Window.ofSpec (Memref.whole main_arg0) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S2048x8192 : Shape := ⟨2, ![2048, 8192]⟩
abbrev S2048 : Shape := ⟨1, ![2048]⟩
abbrev S2048x1 : Shape := ⟨2, ![2048, 1]⟩
abbrev S2048x2 : Shape := ⟨2, ![2048, 2]⟩
abbrev S2048x2048 : Shape := ⟨2, ![2048, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S8192x1024, .f32⟩
  | .hbm, ⟨7, _⟩ => ⟨S8192x1024, .f32⟩
  | .hbm, ⟨8, _⟩ => ⟨S1024x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S2048x8192, .f32⟩
  | .hbm, ⟨14, _⟩ => ⟨S2048, .i32⟩
  | .hbm, ⟨15, _⟩ => ⟨S2048x8192, .f32⟩
  | .hbm, ⟨16, _⟩ => ⟨S_, .f32⟩
  | .hbm, ⟨17, _⟩ => ⟨S2048, .f32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048x1, .i32⟩
  | .hbm, ⟨34, _⟩ => ⟨S2048x2, .i32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048x2048, .f32⟩
  | .hbm, ⟨42, _⟩ => ⟨S2048x2048, .i32⟩
  | .hbm, ⟨43, _⟩ => ⟨S_, .i32⟩
  | .hbm, ⟨44, _⟩ => ⟨S2048x2048, .i32⟩
  | .hbm, ⟨45, _⟩ => ⟨S2048x2048, .i32⟩
  | .hbm, ⟨46, _⟩ => ⟨S2048x2048, .i32⟩
  | .hbm, ⟨47, _⟩ => ⟨S2048x2048, .i1⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_cst : Ref sig .tc := ⟨.hbm, 48, rfl⟩
abbrev main_call1_v5 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  slices_S8192x8192_S2048x8192_0_0 : S8192x8192.Slices ![0, 0] S2048x8192
  reducesTo_S2048x8192_S2048_d1 : S2048x8192.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  slices_S2048x8192_S2048x2048_0_0 : S2048x8192.Slices ![0, 0] S2048x2048
  bcast_S_S2048x2048 : S_.BroadcastsInDim S2048x2048 (![] : Fin 0 → Fin S2048x2048.rank)
  reducesTo_S2048x2048_S_d0_1 : S2048x2048.ReducesTo [0, 1] S_
  reducesTo_S2048_S_d0 : S2048.ReducesTo [0] S_
  dot_S8192x1024_S1024x8192_S8192x8192_1_0_0_1_n_n_wf : DotDims.WF S8192x1024 S1024x8192 S8192x8192 [1] [0] [0] [1] [] []
  gather_S2048x8192_S2048x2_S2048_n_01_n_n_01_1_11_wf : GatherDims.WF S2048x8192 S2048x2 S2048 [] [0, 1] [] [0, 1] [] 1 ![1, 1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S2048x8192_S2048x2_S2048_n_01_n_n_01_1_11 : GatherDims S2048x8192 S2048x2 S2048 where
  offsetDims := []
  collapsedSliceDims := [0, 1]
  operandBatchingDims := []
  startIndicesBatchingDims := []
  startIndexMap := [0, 1]
  indexVectorDim := 1
  sliceSizes := ![1, 1]
  wf := gather_S2048x8192_S2048x2_S2048_n_01_n_n_01_1_11_wf

class Facts : Prop extends Facts₀ where

variable [Facts]
-- ==== Proof.K.Kit.lean ====
/-
  What the frame and the value of the word-level kernel are stated over: the arrays as the region finds them and a
  window's block at a grid point; the three branches of the body decided over the 32 grid points (the first point
  resets the scratch; points below 8 meet the leading 2048 × 2048 block; the last point copies the accumulators out);
  where the two result windows are idle; the staging and scratch memrefs by name; that each input's staging buffer
  holds its block at every point; and what the scratch buffers carry from point to point — the normalised leading
  rows, the running row sums of exponentials, the running sum above the diagonal.
-/
import proofs.«127541_j44513041056397_1_alg».proof.Proof.Gen.Kernel.Launch
import proofs.«127541_j44513041056397_1_alg».proof.Proof.Gen.Kernel.Skeleton
import proofs.«127541_j44513041056397_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays and the blocks -/

/-- Core `c`'s buffers when the region is entered: @main begins with the region, so the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The leading 2048 rows (window 0's one block) and the 256 rows of point `t` (window 1's), at their literal types. -/
abbrev lead (c : Dev nD) (t : Fin cfg0.N) : Vec F S2048x1024 .f32 := iblk m c 0 t
abbrev tile (c : Dev nD) (t : Fin cfg0.N) : Vec F S256x1024 .f32 := iblk m c 1 t

/-! ## The body's branches, over the grid -/

/-- `pl.when(k == 0)`: the skeleton's scalar chain. -/
abbrev isFirst (i : grid0.Coords) : Prop :=
  Scalar.cmpi .ne (Scalar.extui (Scalar.cmpi .eq (BitVec.ofNat 32 (i 0).val) 0#32)) 0#32 = 1#1
/-- `pl.when(k < 8)`. -/
abbrev isLeading (i : grid0.Coords) : Prop :=
  Scalar.cmpi .ne (Scalar.extui (Scalar.cmpi .slt (BitVec.ofNat 32 (i 0).val) 8#32)) 0#32 = 1#1
/-- `pl.when(k == 31)`. -/
abbrev isLast (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isLeading_iff : ∀ t : Fin cfg0.N, isLeading (grid0.coords t) ↔ t.val < 8 :=
  (by decide +kernel : ∀ t : Fin grid0.N, isLeading (grid0.coords t) ↔ t.val < 8)
theorem isLast_iff : ∀ t : Fin cfg0.N, isLast (grid0.coords t) ↔ t.val = 31 :=
  (by decide +kernel : ∀ t : Fin grid0.N, isLast (grid0.coords t) ↔ t.val = 31)

/-! ## Where the windows are idle, and written back -/

theorem live_in0 : ∀ i, cfg0.idle 0 i = false := fun _ => rfl
theorem live_in1 : ∀ i, cfg0.idle 1 i = false := fun _ => rfl
theorem idle_out2 : ∀ t : Fin cfg0.N, ¬ t.val = 31 → cfg0.idle 2 (grid0.coords t) = true := by decide +kernel
theorem idle_out3 : ∀ t : Fin cfg0.N, ¬ t.val = 31 → cfg0.idle 3 (grid0.coords t) = true := by decide +kernel
theorem live_out2 : ∀ t : Fin cfg0.N, t.val = 31 → cfg0.idle 2 (grid0.coords t) = false := by decide +kernel
theorem live_out3 : ∀ t : Fin cfg0.N, t.val = 31 → cfg0.idle 3 (grid0.coords t) = false := by decide +kernel
theorem noflush_out2 : ∀ t : Fin cfg0.N, ¬ t.val = 31 → (cfg0.win 2).flush t = false := by decide +kernel
theorem noflush_out3 : ∀ t : Fin cfg0.N, ¬ t.val = 31 → (cfg0.win 3).flush t = false := by decide +kernel

/-! ## The memrefs by name -/

abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The scratch: the normalised leading rows, the row sums, the sum above the diagonal. -/
abbrev scZ : Memref sig .tc .vmem S2048x1024 .bf16 := Memref.whole cc0_scratch0
abbrev scE : Memref sig .tc .vmem S2048x1 .f32 := Memref.whole cc0_scratch1
abbrev scS : Memref sig .tc .vmem S1x1 .f32 := Memref.whole cc0_scratch2

/-! ## What the inputs' staging buffers hold -/

/-- Window 0's buffer holds the leading rows at every point (fetched at the first only; its block never moves), for
    any proof data whose array is the region's and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1's buffer holds the point's 256 rows (fetched at every point). -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The class invariant, listed -/

/-- The scoped rest and the generator register, the three scratch buffers as memrefs owned at some contents. -/
theorem PhiA_eq (c : Dev nD) :
    (Pipeline.ΦA spec0 c : sProp 𝕄)
      = iprop(iprop((∃ d, owns (c : Thread nD τ) scZ fullShare d) ∗ (∃ d, owns (c : Thread nD τ) scE fullShare d) ∗ (∃ d, owns (c : Thread nD τ) scS fullShare d)) ∗ (∃ r, prngReg c r)) := by
  unfold Pipeline.ΦA; rw [scopedRest0_eq]; simp only [scZ, scE, scS, owns_whole]; try rfl

/-! ## What the scratch carries -/

/-- The first grid point. -/
abbrev t₀ : Fin cfg0.N := ⟨0, by decide⟩

/-- The normalised leading rows, as the first point stores them. -/
def zlead (c : Dev nD) : FVec F S2048x1024 .bf16 := k0_pay1 (lead m c t₀)

/-- The row sums of exponentials after point `n`: zeros, then each point's 256 columns added. -/
def accE (c : Dev nD) : (n : ℕ) → n < cfg0.N → FVec F S2048x1 .f32
  | 0, hn => k0_pay5 (tile m c ⟨0, hn⟩) (zlead m c) (k0_pay2 (F := F))
  | n + 1, hn => k0_pay5 (tile m c ⟨n + 1, hn⟩) (zlead m c) (accE c n (Nat.lt_of_succ_lt hn))

/-- The sum above the diagonal after point `n`: zero, then each of the first eight points' part added. -/
def accS (c : Dev nD) : (n : ℕ) → n < cfg0.N → FVec F S1x1 .f32
  | 0, hn => k0_pay6 (grid0.coords ⟨0, hn⟩) (tile m c ⟨0, hn⟩) (zlead m c) (k0_pay3 (F := F))
  | n + 1, hn =>
    if n + 1 < 8 then k0_pay6 (grid0.coords ⟨n + 1, hn⟩) (tile m c ⟨n + 1, hn⟩) (zlead m c) (accS c n (Nat.lt_of_succ_lt hn))
    else accS c n (Nat.lt_of_succ_lt hn)

theorem accE_zero (c : Dev nD) (hn : 0 < cfg0.N) : accE m c 0 hn = k0_pay5 (tile m c ⟨0, hn⟩) (zlead m c) (k0_pay2 (F := F)) := rfl
theorem accE_succ (c : Dev nD) (n : ℕ) (hn : n + 1 < cfg0.N) :
    accE m c (n + 1) hn = k0_pay5 (tile m c ⟨n + 1, hn⟩) (zlead m c) (accE m c n (Nat.lt_of_succ_lt hn)) := rfl
theorem accS_zero (c : Dev nD) (hn : 0 < cfg0.N) :
    accS m c 0 hn = k0_pay6 (grid0.coords ⟨0, hn⟩) (tile m c ⟨0, hn⟩) (zlead m c) (k0_pay3 (F := F)) := rfl
theorem accS_succ_lt (c : Dev nD) (n : ℕ) (hn : n + 1 < cfg0.N) (h : n + 1 < 8) :
    accS m c (n + 1) hn = k0_pay6 (grid0.coords ⟨n + 1, hn⟩) (tile m c ⟨n + 1, hn⟩) (zlead m c) (accS m c n (Nat.lt_of_succ_lt hn)) := by
  rw [accS]; exact if_pos h
theorem accS_succ_ge (c : Dev nD) (n : ℕ) (hn : n + 1 < cfg0.N) (h : ¬ n + 1 < 8) :
    accS m c (n + 1) hn = accS m c n (Nat.lt_of_succ_lt hn) := by
  rw [accS]; exact if_neg h

/-- The last grid point. -/
abbrev tL : Fin cfg0.N := ⟨31, by decide⟩

end Cert.Kernel.Hand

end
-- ==== Proof.K.Data.lean ====
/-
  The pipeline's proof data. The two input windows read one array: window 0 holds the left half of its share and
  window 1 the right half. After the body each input's buffer holds its block; the two result buffers matter at the
  last point only, where they receive the accumulators. Between points the invariant holds the three scratch
  buffers at what the points so far have made of them (before the first point: at anything).
-/
import proofs.«127541_j44513041056397_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The invariant before point `n`: the class invariant before the first point; afterwards the scratch at the
    normalised leading rows and the two accumulators after point `n - 1`, and the generator register. -/
def PhiS (c : Dev nD) : (n : ℕ) → n ≤ cfg0.N → sProp 𝕄
  | 0, _ => Pipeline.ΦA spec0 c
  | n + 1, hn => iprop(iprop(owns (c : Thread nD τ) scZ fullShare (zlead m c) ∗ owns (c : Thread nD τ) scE fullShare (accE m c n hn)
      ∗ owns (c : Thread nD τ) scS fullShare (accS m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scZ fullShare (zlead m c) ∗ owns (c : Thread nD τ) scE fullShare (accE m c n hn)
      ∗ owns (c : Thread nD τ) scS fullShare (accS m c n hn)) ∗ (∃ r, prngReg c r)) := rfl

theorem PhiS_pos (c : Dev nD) (n : ℕ) (h : n ≤ cfg0.N) (hz : n ≠ 0) :
    PhiS m c n h = iprop(iprop(owns (c : Thread nD τ) scZ fullShare (zlead m c) ∗ owns (c : Thread nD τ) scE fullShare (accE m c (n - 1) (by omega))
      ∗ owns (c : Thread nD τ) scS fullShare (accS m c (n - 1) (by omega))) ∗ (∃ r, prngReg c r)) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accE m c t.val t.isLt
    | ⟨3, _⟩ => accS m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accE m c t.val t.isLt := by dsimp only [dats]
theorem after3 (c : Dev nD) (t : Fin cfg0.N) : (dats m 0 c).after 3 t = accS m c t.val t.isLt := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d

/-- The shares: the one array's two halves, the results outright. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

end Cert.Kernel.Hand

end
-- ==== Proof.K.Stores.lean ====
/-
  Two facts about a buffer accessed whole: a store of the whole buffer, read back, gives the stored value whatever
  was stored before; a load of the whole buffer reads its contents.
-/
import proofs.«127541_j44513041056397_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The whole-buffer rectangle's offsets are zero. -/
theorem off0 : (![0, 0] : Fin 2 → ℕ) = fun _ => 0 := funext fun a => by fin_cases a <;> rfl

/-- A buffer whose last store covered it whole reads as that store's value. -/
theorem read_writes_whole {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A load of the whole buffer reads its contents. -/
theorem readAt_whole {S : Shape} {e : EltTy} (v : View sig .tc .vmem S e) (f : v.ty.Contents (Elt F)) {off : Fin S.rank → ℕ}
    (h : off = fun _ => 0) (inb : ∀ a, off a + S.size a ≤ S.size a) :
    View.readAt (Elt F) v (Rect.unit off S.size inb).toLoadRect f = v.read (Elt F) f := by
  rw [View.readAt_eq_ld, View.ld_unit_zero h inb]

end Cert.Kernel.Hand

end
-- ==== Proof.K.RunFirst.lean ====
/-
  The body at the first point: it normalises the leading rows into the scratch, zeroes both accumulators, then adds
  the point's exponentials to the row sums and its part above the diagonal to the triangle sum.
-/
import proofs.«127541_j44513041056397_1_alg».proof.Proof.K.Stores

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_first (c : Dev nD) (i : grid0.Coords) (arg1 : Memref sig .tc .vmem S2048x1024 .f32) (harg1 : arg1.IsWhole) (arg2 : Memref sig .tc .vmem S256x1024 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S2048x1024 .bf16) (harg5 : arg5.IsWhole) (arg6 : Memref sig .tc .vmem S2048x1 .f32) (harg6 : arg6.IsWhole) (arg7 : Memref sig .tc .vmem S1x1 .f32) (harg7 : arg7.IsWhole)
    (h1 : isFirst i) (h2 : isLeading i) (h3 : ¬ isLast i)
    (x0 : Vec F S2048x1024 .f32) (x1 : Vec F S256x1024 .f32) (d2 : Vec F S2048x1 .f32) (d3 : Vec F S1x1 .f32)
    (z : Vec F S2048x1024 .bf16) (e : Vec F S2048x1 .f32) (s : Vec F S1x1 .f32) (K : PUnit → sProp 𝕄) :
    iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare e
        ∗ owns (c : Thread nD τ) arg7 fullShare s
        ∗ (iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare (k0_pay1 x0) ∗ owns (c : Thread nD τ) arg6 fullShare (k0_pay5 x1 (k0_pay1 x0) (k0_pay2 (F := F)))
        ∗ owns (c : Thread nD τ) arg7 fullShare (k0_pay6 i x1 (k0_pay1 x0) (k0_pay3 (F := F)))) -∗ K ⟨⟩))
      ⊢ wp frame (wpE (defs₀ (F := F)) Variants.none c none) Set.univ (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    sl_unfold_words
    rw [read_writes_whole _ _ off0, readAt_whole arg1.view _ off0, hf1]
  isplitl [H6]
  · iexists _; isplitr; swap; · iexact H6
    ipureintro
    rw [read_writes_whole _ _ off0]
    sl_unfold_words
    rw [View.readCov_unit_zero arg5.view off0, View.readCov_unit_zero arg6.view off0, readAt_whole arg2.view _ off0, readAt_whole arg1.view _ off0, hf2, hf1]
  iexists _; isplitr; swap; · iexact H7
  ipureintro
  rw [read_writes_whole _ _ off0]
  sl_unfold_words
  rw [View.readCov_unit_zero arg5.view off0, View.readCov_unit_zero arg7.view off0, readAt_whole arg2.view _ off0, readAt_whole arg1.view _ off0, hf2, hf1]

end Cert.Kernel.Hand

end
-- ==== Proof.K.RunLead.lean ====
/-
  The body at points one to seven: the row sums take the point's exponentials and the triangle sum the point's part
  above the diagonal.
-/
import proofs.«127541_j44513041056397_1_alg».proof.Proof.K.Stores

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_lead (c : Dev nD) (i : grid0.Coords) (arg1 : Memref sig .tc .vmem S2048x1024 .f32) (harg1 : arg1.IsWhole) (arg2 : Memref sig .tc .vmem S256x1024 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S2048x1024 .bf16) (harg5 : arg5.IsWhole) (arg6 : Memref sig .tc .vmem S2048x1 .f32) (harg6 : arg6.IsWhole) (arg7 : Memref sig .tc .vmem S1x1 .f32) (harg7 : arg7.IsWhole)
    (h1 : ¬ isFirst i) (h2 : isLeading i) (h3 : ¬ isLast i)
    (x0 : Vec F S2048x1024 .f32) (x1 : Vec F S256x1024 .f32) (d2 : Vec F S2048x1 .f32) (d3 : Vec F S1x1 .f32)
    (z : Vec F S2048x1024 .bf16) (e : Vec F S2048x1 .f32) (s : Vec F S1x1 .f32) (K : PUnit → sProp 𝕄) :
    iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare e
        ∗ owns (c : Thread nD τ) arg7 fullShare s
        ∗ (iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare (k0_pay5 x1 z e)
        ∗ owns (c : Thread nD τ) arg7 fullShare (k0_pay6 i x1 z s)) -∗ K ⟨⟩))
      ⊢ wp frame (wpE (defs₀ (F := F)) Variants.none c none) Set.univ (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    rw [read_writes_whole _ _ off0, readAt_whole arg2.view _ off0, readAt_whole arg5.view _ off0, readAt_whole arg6.view _ off0, hf2, hf5, hf6]
  iexists _; isplitr; swap; · iexact H7
  ipureintro
  rw [read_writes_whole _ _ off0, readAt_whole arg2.view _ off0, readAt_whole arg5.view _ off0, readAt_whole arg7.view _ off0, hf2, hf5, hf7]

end Cert.Kernel.Hand

end
-- ==== Proof.K.RunMid.lean ====
/-
  The body at a point that is neither the first, nor among the first eight, nor the last: it reads the point's 256
  rows and the stored unit rows, and adds the 256 columns' exponentials to the row sums; nothing else changes.
-/
import proofs.«127541_j44513041056397_1_alg».proof.Proof.K.Stores

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_mid (c : Dev nD) (i : grid0.Coords) (arg1 : Memref sig .tc .vmem S2048x1024 .f32) (harg1 : arg1.IsWhole) (arg2 : Memref sig .tc .vmem S256x1024 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S2048x1024 .bf16) (harg5 : arg5.IsWhole) (arg6 : Memref sig .tc .vmem S2048x1 .f32) (harg6 : arg6.IsWhole) (arg7 : Memref sig .tc .vmem S1x1 .f32) (harg7 : arg7.IsWhole)
    (h1 : ¬ isFirst i) (h2 : ¬ isLeading i) (h3 : ¬ isLast i)
    (x0 : Vec F S2048x1024 .f32) (x1 : Vec F S256x1024 .f32) (d2 : Vec F S2048x1 .f32) (d3 : Vec F S1x1 .f32)
    (z : Vec F S2048x1024 .bf16) (e : Vec F S2048x1 .f32) (s : Vec F S1x1 .f32) (K : PUnit → sProp 𝕄) :
    iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare e
        ∗ owns (c : Thread nD τ) arg7 fullShare s
        ∗ (iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare (k0_pay5 x1 z e)
        ∗ owns (c : Thread nD τ) arg7 fullShare s) -∗ K ⟨⟩))
      ⊢ wp frame (wpE (defs₀ (F := F)) Variants.none c none) Set.univ (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    rw [read_writes_whole _ _ off0, readAt_whole arg2.view _ off0, readAt_whole arg5.view _ off0, readAt_whole arg6.view _ off0, hf2, hf5, hf6]
  iexists _; isplitr; · ipureintro; exact hf7
  iexact H7

end Cert.Kernel.Hand

end
-- ==== Proof.K.RunLast.lean ====
/-
  The body at the last point: the row sums take the point's exponentials, and both accumulators are copied into
  the result windows' buffers.
-/
import proofs.«127541_j44513041056397_1_alg».proof.Proof.K.Stores

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_last (c : Dev nD) (i : grid0.Coords) (arg1 : Memref sig .tc .vmem S2048x1024 .f32) (harg1 : arg1.IsWhole) (arg2 : Memref sig .tc .vmem S256x1024 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S2048x1024 .bf16) (harg5 : arg5.IsWhole) (arg6 : Memref sig .tc .vmem S2048x1 .f32) (harg6 : arg6.IsWhole) (arg7 : Memref sig .tc .vmem S1x1 .f32) (harg7 : arg7.IsWhole)
    (h1 : ¬ isFirst i) (h2 : ¬ isLeading i) (h3 : isLast i)
    (x0 : Vec F S2048x1024 .f32) (x1 : Vec F S256x1024 .f32) (d2 : Vec F S2048x1 .f32) (d3 : Vec F S1x1 .f32)
    (z : Vec F S2048x1024 .bf16) (e : Vec F S2048x1 .f32) (s : Vec F S1x1 .f32) (K : PUnit → sProp 𝕄) :
    iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare e
        ∗ owns (c : Thread nD τ) arg7 fullShare s
        ∗ (iprop(owns (c : Thread nD τ) arg1 fullShare x0 ∗ owns (c : Thread nD τ) arg2 fullShare x1 ∗ owns (c : Thread nD τ) arg3 fullShare (k0_pay5 x1 z e)
        ∗ owns (c : Thread nD τ) arg4 fullShare s ∗ owns (c : Thread nD τ) arg5 fullShare z ∗ owns (c : Thread nD τ) arg6 fullShare (k0_pay5 x1 z e)
        ∗ owns (c : Thread nD τ) arg7 fullShare s) -∗ K ⟨⟩))
      ⊢ wp frame (wpE (defs₀ (F := F)) Variants.none c none) Set.univ (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    rw [read_writes_whole _ _ off0]
    sl_unfold_words
    rw [View.readCov_unit_zero arg6.view off0, readAt_whole arg2.view _ off0, readAt_whole arg5.view _ off0, readAt_whole arg6.view _ off0, hf2, hf5, hf6]
  isplitl [H4]
  · iexists _; isplitr; swap; · iexact H4
    ipureintro
    rw [read_writes_whole _ _ off0, readAt_whole arg7.view _ off0, hf7]
  isplitl [H5]
  · iexists _; isplitr; · ipureintro; exact hf5
    iexact H5
  isplitl [H6]
  · iexists _; isplitr; swap; · iexact H6
    ipureintro
    sl_unfold_words
    rw [read_writes_whole _ _ off0, readAt_whole arg2.view _ off0, readAt_whole arg5.view _ off0, readAt_whole arg6.view _ off0, hf2, hf5, hf6]
  iexists _; isplitr; · ipureintro; exact hf7
  iexact H7

end Cert.Kernel.Hand

end
-- ==== Proof.K.Body.lean ====
/-
  The body obligation at every grid point. The point's place on the grid says which branches the body takes; the
  invariant hands it the scratch at what the points before left (at anything, before the first point) and takes it
  back at what this point makes of it; the input buffers hold their blocks; the result buffers are left alone at
  every point but the last, which stores the accumulators into them.
-/
import proofs.«127541_j44513041056397_1_alg».proof.Proof.K.RunFirst
import proofs.«127541_j44513041056397_1_alg».proof.Proof.K.RunLead
import proofs.«127541_j44513041056397_1_alg».proof.Proof.K.RunMid
import proofs.«127541_j44513041056397_1_alg».proof.Proof.K.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The accumulators, one point after another -/

theorem zlead_first (c : Dev nD) (t : Fin cfg0.N) (hz : t.val = 0) : zlead m c = k0_pay1 (iblk m c 0 t) := by
  obtain ⟨n, hn⟩ := t; obtain rfl : n = 0 := hz; rfl
theorem accE_first (c : Dev nD) (t : Fin cfg0.N) (hz : t.val = 0) :
    accE m c t.val t.isLt = k0_pay5 (iblk m c 1 t) (k0_pay1 (iblk m c 0 t)) (k0_pay2 (F := F)) := by
  obtain ⟨n, hn⟩ := t; obtain rfl : n = 0 := hz; rfl
theorem accS_first (c : Dev nD) (t : Fin cfg0.N) (hz : t.val = 0) :
    accS m c t.val t.isLt = k0_pay6 (grid0.coords t) (iblk m c 1 t) (k0_pay1 (iblk m c 0 t)) (k0_pay3 (F := F)) := by
  obtain ⟨n, hn⟩ := t; obtain rfl : n = 0 := hz; rfl
theorem accE_step (c : Dev nD) (t : Fin cfg0.N) (hz : t.val ≠ 0) :
    accE m c t.val t.isLt = k0_pay5 (iblk m c 1 t) (zlead m c) (accE m c (t.val - 1) (by omega)) := by
  obtain ⟨n, hn⟩ := t
  cases n with
  | zero => exact absurd rfl hz
  | succ n => rfl
theorem accS_step_lt (c : Dev nD) (t : Fin cfg0.N) (hz : t.val ≠ 0) (h : t.val < 8) :
    accS m c t.val t.isLt = k0_pay6 (grid0.coords t) (iblk m c 1 t) (zlead m c) (accS m c (t.val - 1) (by omega)) := by
  obtain ⟨n, hn⟩ := t
  cases n with
  | zero => exact absurd rfl hz
  | succ n => exact accS_succ_lt m c n hn h
theorem accS_step_ge (c : Dev nD) (t : Fin cfg0.N) (hz : t.val ≠ 0) (h : ¬ t.val < 8) :
    accS m c t.val t.isLt = accS m c (t.val - 1) (by omega) := by
  obtain ⟨n, hn⟩ := t
  cases n with
  | zero => exact absurd rfl hz
  | succ n => exact accS_succ_ge m c n hn h

/-! ## The obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live_in0], after0]
  rw [show (dats m 0 c).leavesExact 1 t = owns (c : Thread nD τ) (ms1 t) fullShare ((dats m 0 c).after 1 t) from by
    unfold Dat.leavesExact; rw [live_in1], after1]
  by_cases hz : t.val = 0
  · -- the first point
    have hL : ¬ t.val = 31 := by omega
    have h1 : isFirst (grid0.coords t) := (isFirst_iff t).mpr hz
    have h2 : isLeading (grid0.coords t) := (isLeading_iff t).mpr (by omega)
    have h3 : ¬ isLast (grid0.coords t) := fun h => hL ((isLast_iff t).mp h)
    rw [Dat.leavesExact_idle (dats m 0 c) 2 t (idle_out2 t hL) (noflush_out2 t hL),
      Dat.leavesExact_idle (dats m 0 c) 3 t (idle_out3 t hL) (noflush_out3 t hL)]
    rw [Phi_castSucc m c t, PhiS_zero m c _ _ hz, PhiA_eq, zlead_first m c t hz, accE_first m c t hz, accS_first m c t hz]
    iintro ⟨⟨⟨⟨%z, HZ⟩, ⟨%e, HE⟩, ⟨%s, HS⟩⟩, Hg⟩, Ho, ⟨%d0, H0⟩, ⟨%d1, H1⟩, ⟨%d2, H2⟩, ⟨%d3, H3⟩⟩
    iapply (run_first c (grid0.coords t) _ _ _ _ _ _ _ _ _ _ _ _ _ _ h1 h2 h3 (iblk m c 0 t) (iblk m c 1 t) ((dats m 0 c).before 2 t d2) ((dats m 0 c).before 3 t d3) z e s _)
    isplitl [H0]; · iexact H0
    isplitl [H1]; · iexact H1
    isplitl [H2]; · iexact H2
    isplitl [H3]; · iexact H3
    isplitl [HZ]; · iexact HZ
    isplitl [HE]; · iexact HE
    isplitl [HS]; · iexact HS
    iintro ⟨H0, H1, H2, H3, HZ, HE, HS⟩
    isplitl [HZ HE HS Hg]
    · isplitr [Hg]
      · isplitl [HZ]; · iexact HZ
        isplitl [HE]; · iexact HE
        iexact HS
      · iexact Hg
    isplitl [Ho]; · iexact Ho
    isplitl [H0]; · iexact H0
    isplitl [H1]; · iexact H1
    isplitl [H2]; · iexists d2; iexact H2
    iexists d3; iexact H3
  · rw [Phi_castSucc m c t, PhiS_pos m c _ _ hz]
    have h1 : ¬ isFirst (grid0.coords t) := fun h => hz ((isFirst_iff t).mp h)
    by_cases hl : t.val < 8
    · -- points one to seven
      have hL : ¬ t.val = 31 := by omega
      have h2 : isLeading (grid0.coords t) := (isLeading_iff t).mpr hl
      have h3 : ¬ isLast (grid0.coords t) := fun h => hL ((isLast_iff t).mp h)
      rw [Dat.leavesExact_idle (dats m 0 c) 2 t (idle_out2 t hL) (noflush_out2 t hL),
        Dat.leavesExact_idle (dats m 0 c) 3 t (idle_out3 t hL) (noflush_out3 t hL)]
      rw [accE_step m c t hz, accS_step_lt m c t hz hl]
      iintro ⟨⟨⟨HZ, HE, HS⟩, Hg⟩, Ho, ⟨%d0, H0⟩, ⟨%d1, H1⟩, ⟨%d2, H2⟩, ⟨%d3, H3⟩⟩
      iapply (run_lead c (grid0.coords t) _ _ _ _ _ _ _ _ _ _ _ _ _ _ h1 h2 h3 (iblk m c 0 t) (iblk m c 1 t) ((dats m 0 c).before 2 t d2) ((dats m 0 c).before 3 t d3) (zlead m c) (accE m c (t.val - 1) (by omega)) (accS m c (t.val - 1) (by omega)) _)
      isplitl [H0]; · iexact H0
      isplitl [H1]; · iexact H1
      isplitl [H2]; · iexact H2
      isplitl [H3]; · iexact H3
      isplitl [HZ]; · iexact HZ
      isplitl [HE]; · iexact HE
      isplitl [HS]; · iexact HS
      iintro ⟨H0, H1, H2, H3, HZ, HE, HS⟩
      isplitl [HZ HE HS Hg]
      · isplitr [Hg]
        · isplitl [HZ]; · iexact HZ
          isplitl [HE]; · iexact HE
          iexact HS
        · iexact Hg
      isplitl [Ho]; · iexact Ho
      isplitl [H0]; · iexact H0
      isplitl [H1]; · iexact H1
      isplitl [H2]; · iexists d2; iexact H2
      iexists d3; iexact H3
    · have h2 : ¬ isLeading (grid0.coords t) := fun h => hl ((isLeading_iff t).mp h)
      by_cases hL : t.val = 31
      · -- the last point
        have h3 : isLast (grid0.coords t) := (isLast_iff t).mpr hL
        rw [show (dats m 0 c).leavesExact 2 t = owns (c : Thread nD τ) (ms2 t) fullShare ((dats m 0 c).after 2 t) from by
          unfold Dat.leavesExact; rw [live_out2 t hL], after2]
        rw [show (dats m 0 c).leavesExact 3 t = owns (c : Thread nD τ) (ms3 t) fullShare ((dats m 0 c).after 3 t) from by
          unfold Dat.leavesExact; rw [live_out3 t hL], after3]
        rw [accE_step m c t hz, accS_step_ge m c t hz hl]
        iintro ⟨⟨⟨HZ, HE, HS⟩, Hg⟩, Ho, ⟨%d0, H0⟩, ⟨%d1, H1⟩, ⟨%d2, H2⟩, ⟨%d3, H3⟩⟩
        iapply (run_last c (grid0.coords t) _ _ _ _ _ _ _ _ _ _ _ _ _ _ h1 h2 h3 (iblk m c 0 t) (iblk m c 1 t) ((dats m 0 c).before 2 t d2) ((dats m 0 c).before 3 t d3) (zlead m c) (accE m c (t.val - 1) (by omega)) (accS m c (t.val - 1) (by omega)) _)
        isplitl [H0]; · iexact H0
        isplitl [H1]; · iexact H1
        isplitl [H2]; · iexact H2
        isplitl [H3]; · iexact H3
        isplitl [HZ]; · iexact HZ
        isplitl [HE]; · iexact HE
        isplitl [HS]; · iexact HS
        iintro ⟨H0, H1, H2, H3, HZ, HE, HS⟩
        isplitl [HZ HE HS Hg]
        · isplitr [Hg]
          · isplitl [HZ]; · iexact HZ
            isplitl [HE]; · iexact HE
            iexact HS
          · iexact Hg
        isplitl [Ho]; · iexact Ho
        isplitl [H0]; · iexact H0
        isplitl [H1]; · iexact H1
        isplitl [H2]; · iexact H2
        iexact H3
      · -- the points between
        have h3 : ¬ isLast (grid0.coords t) := fun h => hL ((isLast_iff t).mp h)
        rw [Dat.leavesExact_idle (dats m 0 c) 2 t (idle_out2 t hL) (noflush_out2 t hL),
          Dat.leavesExact_idle (dats m 0 c) 3 t (idle_out3 t hL) (noflush_out3 t hL)]
        rw [accE_step m c t hz, accS_step_ge m c t hz hl]
        iintro ⟨⟨⟨HZ, HE, HS⟩, Hg⟩, Ho, ⟨%d0, H0⟩, ⟨%d1, H1⟩, ⟨%d2, H2⟩, ⟨%d3, H3⟩⟩
        iapply (run_mid c (grid0.coords t) _ _ _ _ _ _ _ _ _ _ _ _ _ _ h1 h2 h3 (iblk m c 0 t) (iblk m c 1 t) ((dats m 0 c).before 2 t d2) ((dats m 0 c).before 3 t d3) (zlead m c) (accE m c (t.val - 1) (by omega)) (accS m c (t.val - 1) (by omega)) _)
        isplitl [H0]; · iexact H0
        isplitl [H1]; · iexact H1
        isplitl [H2]; · iexact H2
        isplitl [H3]; · iexact H3
        isplitl [HZ]; · iexact HZ
        isplitl [HE]; · iexact HE
        isplitl [HS]; · iexact HS
        iintro ⟨H0, H1, H2, H3, HZ, HE, HS⟩
        isplitl [HZ HE HS Hg]
        · isplitr [Hg]
          · isplitl [HZ]; · iexact HZ
            isplitl [HE]; · iexact HE
            iexact HS
          · iexact Hg
        isplitl [Ho]; · iexact Ho
        isplitl [H0]; · iexact H0
        isplitl [H1]; · iexact H1
        isplitl [H2]; · iexists d2; iexact H2
        iexists d3; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Shares.lean ====
/-
  How the one input array reaches two windows. At the region's entry the input's buffer, held whole, is dealt in two
  halves, one to each input window, beside the two result arrays held outright; at its exit the halves — both still
  at the input's contents — are joined again. The buffers no window reads pass by untouched.
-/
import proofs.«127541_j44513041056397_1_alg».proof.Proof.K.Data
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers behind the windows' arrays: the input once, and the two results. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0_0) ↦{fullShare} W main_v0_0)
          ∗ (((c : Thread nD τ).loc main_v0_1) ↦{fullShare} W main_v0_1)) := by
  unfold Pipeline.arrBufs
  exact bigSep_eq_bigSepL_of_eq [main_arg0, main_v0_0, main_v0_1] (by decide) (by decide) _

/-- The proof data's arrays, window by window: the input's two halves, the results outright. -/
theorem arrays_eq4 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0_0) ↦{fullShare} G 2) ∗ (((c : Thread nD τ).loc main_v0_1) ↦{fullShare} G 3)) := by
  unfold Dat.arrays
  rw [bigSep_W0]
  rw [share0, share1, share2, share3, (arr_whole0 0).set_eq_univ, (arr_whole0 2).set_eq_univ, (arr_whole0 3).set_eq_univ]

/-- ENTRY: the unscoped buffers at the launch contents are the pipeline's arrays at their entry contents — the
    input's share halved — and the rest. -/
theorem enter_arrays (c : Dev nD) :
    (unscopedBufs c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c), arrBufs_eq, arrays_eq4]
  iintro ⟨⟨Ha, Hv0, Hv1⟩, Hrest⟩
  ihave Hs := (pointsTo_share (PosShare.mem_left_op_right fullShare)).1 $$ Ha
  icases Hs with ⟨Hl, Hr⟩
  isplitr [Hrest]
  · isplitl [Hl]; · iexact Hl
    isplitl [Hr]; · iexact Hr
    isplitl [Hv0]; · iexact Hv0
    iexact Hv1
  · iexact Hrest

/-- EXIT: the arrays at contents `G` whose two input components are one buffer's contents, and the rest at `W`, are
    the unscoped buffers at `W`, when `W` is `G` on the arrays. -/
theorem exit_arrays (c : Dev nD) (G : (w : Fin cfg0.W) → Buf (Elt F) ((cfg0.win w).arr.view.loc (c : Thread nD τ)))
    (W : (b : Ref sig .tc) → Buf (Elt F) ((c : Thread nD τ).loc b))
    (h0 : G 0 = W main_arg0) (h1 : G 1 = W main_arg0) (h2 : G 2 = W main_v0_0) (h3 : G 3 = W main_v0_1) :
    iprop((dats m 0 c).arrays G ∗ Pipeline.unscopedRest spec0 c W) ⊢ (unscopedBufs c W : sProp 𝕄) := by
  rw [Pipeline.unscopedBufs_split₀ cfgs 0 winFacts₀0.arr_unscoped c W, arrBufs_eq, arrays_eq4, h0, h1, h2, h3]
  iintro ⟨⟨Hl, Hr, Hv0, Hv1⟩, Hrest⟩
  isplitr [Hrest]
  · isplitl [Hl Hr]
    · iapply (pointsTo_share (PosShare.mem_left_op_right fullShare)).2
      isplitl [Hl] <;> iassumption
    isplitl [Hv0]; · iexact Hv0
    iexact Hv1
  · iexact Hrest

end Cert.Kernel.Hand

end
-- ==== Proof.K.Launch.lean ====
/-
  The launch: @main is the kernel region followed by eighteen host operations. The region is entered from the
  unscoped buffers at the launch contents — the input dealt in halves to its two windows, the generator register
  into the invariant, everything else passing by — and left with the two result arrays at what the last point wrote
  back and the input joined again; the host operations then run over the buffers as the region left them. Every
  weakly fair execution terminates, the result buffer holds the host operations' term of the region's two results,
  and the input array is as it was.
-/
import proofs.«127541_j44513041056397_1_alg».proof.Proof.K.Body
import proofs.«127541_j44513041056397_1_alg».proof.Proof.K.Shares
import Idealize.ShloMosaic.Lib.Pipeline.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The buffers' contents: at launch, after the region, at the end -/

/-- Core `c`'s buffers at launch, as a valuation. -/
abbrev V₀ (c : Dev nD) : Valuation τ sig (Elt F) := fun b => m ((c : Dev nD), b)

/-- What the region does to the buffers, as two writes: the result arrays at their final contents. -/
def regionOps (c : Dev nD) : List (HloOp τ sig (Elt F)) :=
  [StableHlo.nullary main_v0_0 ((dats m 0 c).arrAt 2 cfg0.N), StableHlo.nullary main_v0_1 ((dats m 0 c).arrAt 3 cfg0.N)]

/-- The buffers when the region is left, -/
abbrev V₁ (c : Dev nD) : Valuation τ sig (Elt F) := StableHlo.after (regionOps m c) (V₀ m c)
/-- and at the end. -/
abbrev V₂ (c : Dev nD) : Valuation τ sig (Elt F) := StableHlo.after hostOps1 (V₁ m c)

theorem V₁_v0_0 (c : Dev nD) : V₁ m c (Proc.devRef .tc main_v0_0) = (dats m 0 c).arrAt 2 cfg0.N := by
  unfold V₁ regionOps; after_results
theorem V₁_v0_1 (c : Dev nD) : V₁ m c (Proc.devRef .tc main_v0_1) = (dats m 0 c).arrAt 3 cfg0.N := by
  unfold V₁ regionOps; after_results

/-- The region writes the two result arrays only. -/
theorem V₁_other (c : Dev nD) (b : Ref sig .tc) (h0 : b ≠ main_v0_0) (h1 : b ≠ main_v0_1) :
    V₁ m c (Proc.devRef .tc b) = V₀ m c (Proc.devRef .tc b) :=
  StableHlo.after_of_forall_not_mem (b := Proc.devRef .tc b) (regionOps m c) (V₀ m c) fun op hop => by
    simp only [regionOps, List.mem_cons, List.mem_nil_iff, or_false] at hop
    rcases hop with rfl | rfl <;> simp only [StableHlo.nullary_writes, Finset.mem_singleton] <;>
      exact StableHlo.devRef_ne_of_ne ‹_›

/-- No host operation writes the input. -/
theorem arg0_kept : ∀ op ∈ (hostOps1 (F := F)), Proc.devRef (τ := τ) .tc main_arg0 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

/-- The input reaches the end as launched. -/
theorem V₂_arg0 (c : Dev nD) : V₂ m c (Proc.devRef .tc main_arg0) = m ((c : Thread nD τ).loc main_arg0) :=
  (StableHlo.after_of_forall_not_mem (b := Proc.devRef .tc main_arg0) hostOps1 (V₁ m c) arg0_kept).trans
    (V₁_other m c main_arg0 (by decide) (by decide))

/-- The buffers no window reads are, after the region, what they were. -/
theorem rest_eq (c : Dev nD) :
    (Pipeline.unscopedRest (Ix := Unit) (Name := ℕ) (U := UR sig nD τ) (Lvl := ℕ) spec0 c (fun b => V₁ m c (Proc.devRef .tc b)) : sProp 𝕄)
      = Pipeline.unscopedRest spec0 c (V m c) := by
  unfold Pipeline.unscopedRest
  refine bigSep_congr fun b hb => ?_
  have hb' := (Finset.mem_sdiff.mp hb).2
  show (((c : Thread nD τ).loc b) ↦{fullShare} V₁ m c (Proc.devRef .tc b) : sProp 𝕄) = _
  rw [V₁_other m c b (fun e => hb' (Finset.mem_image.mpr ⟨2, Finset.mem_univ _, e ▸ rfl⟩))
    (fun e => hb' (Finset.mem_image.mpr ⟨3, Finset.mem_univ _, e ▸ rfl⟩))]

/-- The scoped buffers no window stages are the three scratch buffers. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scZ fullShare d) ∗ (∃ d, owns (c : Thread nD τ) scE fullShare d) ∗ (∃ d, owns (c : Thread nD τ) scS fullShare d)) := by
  rw [scopedRest0_eq]; simp only [scZ, scE, scS, owns_whole]; try rfl

/-! ## The segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the generator register and the core owing nothing. -/
abbrev R (c : Dev nD) : sProp 𝕄 := iprop((∃ r, prngReg c r) ∗ ∃ W, owes (c : Thread nD τ) (0 : CellTallies nD τ sig Unit) W)

/-- THE HOST OPERATIONS after the region, over the unscoped buffers. -/
def seg1 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V₁ m) R

/-- The arrays at their final contents and the untouched rest are the buffers as the region leaves them. -/
theorem leave_arrays (c : Dev nD) :
    iprop((dats m 0 c).arrays ((dats m 0 c).arrAt · cfg0.N) ∗ Pipeline.unscopedRest spec0 c (V m c))
      ⊢ (unscopedBufs c (fun b => V₁ m c (Proc.devRef .tc b)) : sProp 𝕄) := by
  rw [← rest_eq m c]
  exact exit_arrays m c _ (fun b => V₁ m c (Proc.devRef .tc b))
    (((dats m 0 c).arrAt_in 0 rfl _).trans (V₁_other m c main_arg0 (by decide) (by decide)).symm)
    (((dats m 0 c).arrAt_in 1 rfl _).trans (V₁_other m c main_arg0 (by decide) (by decide)).symm)
    (V₁_v0_0 m c).symm (V₁_v0_1 m c).symm

set_option backward.isDefEq.respectTransparency.types false in
/-- THE REGION. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (V₁ m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (V₀ m c) = unscopedBufs c (V m c) from (Pipeline.unscopedBufs_held c _).symm]
    iintro ⟨⟨Hub, Hp, HO⟩, -, -⟩
    ihave H := (enter_arrays m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr] <;> iassumption
  hout c := by
    show (dats m 0 c).Φ (Fin.last cfg0.N) ⊢ iprop((∃ r, prngReg c r) ∗ Pipeline.ownSems0 (fun k : PEmpty => k.elim) c ∗ Pipeline.scopedRest spec0 c)
    rw [Pipeline.ownSems0_none, show (dats m 0 c).Φ (Fin.last cfg0.N) = PhiS m c cfg0.N (Nat.le_refl _) from rfl,
      PhiS_pos m c _ _ (by decide), scopedRest_eq]
    iintro ⟨⟨HZ, HE, HS⟩, Hg⟩
    isplitl [Hg]; · iexact Hg
    isplitr; · iempintro
    isplitl [HZ]; · iexists _; iexact HZ
    isplitl [HE]; · iexists _; iexact HE
    iexists _; iexact HS
  hexit c := by
    rw [show StableHlo.held (c : Thread nD τ) (Pipeline.ucRefs τ sig) (V₁ m c) = unscopedBufs c (fun b => V₁ m c (Proc.devRef .tc b)) from (Pipeline.unscopedBufs_held c _).symm]
    iintro ⟨Ha, HO, HY, HZ⟩
    imodintro
    isplitl [Ha HZ]
    · iapply (leave_arrays m c)
      isplitl [Ha] <;> iassumption
    isplitl [HY]; · iexact HY
    unfold Pipeline.Dat.owesAt Pipeline.owesWithin
    icases HO with ⟨%W, -, HO⟩; iexists W; iexact HO

/-- @main as the list of the two. -/
abbrev segs : List (Pipeline.Seg (pcfgs (F := F)) adm (dats m) () defs₀ Variants.none L lv) := [.region (reg0 m), .host (seg1 m)]

/-- The launch element: the pipeline library's, at the staging cells. -/
def u₀ : UR sig nD τ := initOf (Pipeline.cells cfgs cellOf_inj) (Pipeline.launchToks cfgs cellOf_inj)

set_option backward.isDefEq.respectTransparency.types false in
/-- For any float values, from any memory with every semaphore counter at zero: every weakly fair execution of @main
    on the TensorCores terminates, nothing faulting; the result buffer ends at the host operations' term of the
    region's results and the input array as it was. -/
theorem run_main : θ_run defs (onTc (τ := τ) (main (F := F))) ⟨m, fun _ => 0, ρ⟩ (fun r => ∀ c : Dev nD,
      r.2.mem ((c.tc : Thread nD τ).loc main_v14) = V₂ m c (Proc.devRef .tc main_v14)
      ∧ r.2.mem ((c.tc : Thread nD τ).loc main_arg0) = m ((c.tc : Thread nD τ).loc main_arg0)) :=
  Pipeline.θ_run_regions_kit (pcfgs (F := F)) adm (dats m) () cellOf_inj emb₁ defs₀ Variants.none L lv m ρ main (segs m)
    (fun c Q => by rw [main_segs adm (dats m) () Variants.none L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (Pipeline.ucRefs τ sig) (V₂ m c) ∗ ∃ r, prngReg c r))
    (hch := ⟨fun _ => .rfl, fun _ => .rfl, fun c => by
      show iprop(StableHlo.held (c : Thread nD τ) (Pipeline.ucRefs τ sig) (V₂ m c) ∗ R c)
        ⊢ iprop(iprop(StableHlo.held (c : Thread nD τ) (Pipeline.ucRefs τ sig) (V₂ m c) ∗ ∃ r, prngReg c r)
            ∗ ∃ W, owes (c : Thread nD τ) (0 : CellTallies nD τ sig Unit) W)
      iintro ⟨Hh, Hp, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v14) = V₂ m c (Proc.devRef .tc main_v14)
      ∧ s.mem ((c.tc : Thread nD τ).loc main_arg0) = m ((c.tc : Thread nD τ).loc main_arg0))
    (hfin := fun c s' => by
      rw [show StableHlo.held (c : Thread nD τ) (Pipeline.ucRefs τ sig) (V₂ m c) = unscopedBufs c (fun b => V₂ m c (Proc.devRef .tc b)) from (Pipeline.unscopedBufs_held c _).symm]
      unfold unscopedBufs
      iintro ⟨⟨Hh, -⟩, HSI⟩
      ihave Hr := (pointsTo_read_all (Finset.univ.filter fun b : Ref sig .tc => ¬ b.isScoped) (fun b => (c : Thread nD τ).loc b) (fun b => V₂ m c (Proc.devRef .tc b)) s') $$ [Hh HSI]
      · isplitl [Hh] <;> iassumption
      icases Hr with ⟨%hr, HSI⟩
      imodintro
      isplitr; · ipureintro; exact ⟨hr main_v14 (by decide), (hr main_arg0 (by decide)).trans (V₂_arg0 m c)⟩
      iexact HSI)
    (hQ := fun _ h => h)

end Cert.Kernel.Hand

end
-- ==== Proof.KI.Kit.lean ====
/-
  What the frame and the value of the idealized kernel are stated over: the arrays as the region finds them and a
  window's block at a grid point; the three branches of the body decided over the 32 grid points (the first point
  resets the scratch; points below 8 meet the leading 2048 × 2048 block; the last point copies the accumulators out);
  where the two result windows are idle; the staging and scratch memrefs by name; that each input's staging buffer
  holds its block at every point; and what the scratch buffers carry from point to point — the normalised leading
  rows, the running row sums of exponentials, the running sum above the diagonal.
-/
import proofs.«127541_j44513041056397_1_alg».proof.Proof.Gen.KernelIdeal.Launch
import proofs.«127541_j44513041056397_1_alg».proof.Proof.Gen.KernelIdeal.Skeleton
import proofs.«127541_j44513041056397_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays and the blocks -/

/-- Core `c`'s buffers when the region is entered: @main begins with the region, so the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The leading 2048 rows (window 0's one block) and the 256 rows of point `t` (window 1's), at their literal types. -/
abbrev lead (c : Dev nD) (t : Fin cfg0.N) : Vec F S2048x1024 .f32 := iblk m c 0 t
abbrev tile (c : Dev nD) (t : Fin cfg0.N) : Vec F S256x1024 .f32 := iblk m c 1 t

/-! ## The body's branches, over the grid -/

/-- `pl.when(k == 0)`: the skeleton's scalar chain. -/
abbrev isFirst (i : grid0.Coords) : Prop :=
  Scalar.cmpi .ne (Scalar.extui (Scalar.cmpi .eq (BitVec.ofNat 32 (i 0).val) 0#32)) 0#32 = 1#1
/-- `pl.when(k < 8)`. -/
abbrev isLeading (i : grid0.Coords) : Prop :=
  Scalar.cmpi .ne (Scalar.extui (Scalar.cmpi .slt (BitVec.ofNat 32 (i 0).val) 8#32)) 0#32 = 1#1
/-- `pl.when(k == 31)`. -/
abbrev isLast (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isLeading_iff : ∀ t : Fin cfg0.N, isLeading (grid0.coords t) ↔ t.val < 8 :=
  (by decide +kernel : ∀ t : Fin grid0.N, isLeading (grid0.coords t) ↔ t.val < 8)
theorem isLast_iff : ∀ t : Fin cfg0.N, isLast (grid0.coords t) ↔ t.val = 31 :=
  (by decide +kernel : ∀ t : Fin grid0.N, isLast (grid0.coords t) ↔ t.val = 31)

/-! ## Where the windows are idle, and written back -/

theorem live_in0 : ∀ i, cfg0.idle 0 i = false := fun _ => rfl
theorem live_in1 : ∀ i, cfg0.idle 1 i = false := fun _ => rfl
theorem idle_out2 : ∀ t : Fin cfg0.N, ¬ t.val = 31 → cfg0.idle 2 (grid0.coords t) = true := by decide +kernel
theorem idle_out3 : ∀ t : Fin cfg0.N, ¬ t.val = 31 → cfg0.idle 3 (grid0.coords t) = true := by decide +kernel
theorem live_out2 : ∀ t : Fin cfg0.N, t.val = 31 → cfg0.idle 2 (grid0.coords t) = false := by decide +kernel
theorem live_out3 : ∀ t : Fin cfg0.N, t.val = 31 → cfg0.idle 3 (grid0.coords t) = false := by decide +kernel
theorem noflush_out2 : ∀ t : Fin cfg0.N, ¬ t.val = 31 → (cfg0.win 2).flush t = false := by decide +kernel
theorem noflush_out3 : ∀ t : Fin cfg0.N, ¬ t.val = 31 → (cfg0.win 3).flush t = false := by decide +kernel

/-! ## The memrefs by name -/

abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The scratch: the normalised leading rows, the row sums, the sum above the diagonal. -/
abbrev scZ : Memref sig .tc .vmem S2048x1024 .bf16 := Memref.whole cc0_scratch0
abbrev scE : Memref sig .tc .vmem S2048x1 .f32 := Memref.whole cc0_scratch1
abbrev scS : Memref sig .tc .vmem S1x1 .f32 := Memref.whole cc0_scratch2

/-! ## What the inputs' staging buffers hold -/

/-- Window 0's buffer holds the leading rows at every point (fetched at the first only; its block never moves), for
    any proof data whose array is the region's and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1's buffer holds the point's 256 rows (fetched at every point). -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The class invariant, listed -/

/-- The scoped rest and the generator register, the three scratch buffers as memrefs owned at some contents. -/
theorem PhiA_eq (c : Dev nD) :
    (Pipeline.ΦA spec0 c : sProp 𝕄)
      = iprop(iprop((∃ d, owns (c : Thread nD τ) scZ fullShare d) ∗ (∃ d, owns (c : Thread nD τ) scE fullShare d) ∗ (∃ d, owns (c : Thread nD τ) scS fullShare d)) ∗ (∃ r, prngReg c r)) := by
  unfold Pipeline.ΦA; rw [scopedRest0_eq]; simp only [scZ, scE, scS, owns_whole]; try rfl

/-! ## What the scratch carries -/

/-- The first grid point. -/
abbrev t₀ : Fin cfg0.N := ⟨0, by decide⟩

/-- The normalised leading rows, as the first point stores them. -/
def zlead (c : Dev nD) : FVec F S2048x1024 .bf16 := k0_pay1 (lead m c t₀)

/-- The row sums of exponentials after point `n`: zeros, then each point's 256 columns added. -/
def accE (c : Dev nD) : (n : ℕ) → n < cfg0.N → FVec F S2048x1 .f32
  | 0, hn => k0_pay5 (tile m c ⟨0, hn⟩) (zlead m c) (k0_pay2 (F := F))
  | n + 1, hn => k0_pay5 (tile m c ⟨n + 1, hn⟩) (zlead m c) (accE c n (Nat.lt_of_succ_lt hn))

/-- The sum above the diagonal after point `n`: zero, then each of the first eight points' part added. -/
def accS (c : Dev nD) : (n : ℕ) → n < cfg0.N → FVec F S1x1 .f32
  | 0, hn => k0_pay6 (grid0.coords ⟨0, hn⟩) (tile m c ⟨0, hn⟩) (zlead m c) (k0_pay3 (F := F))
  | n + 1, hn =>
    if n + 1 < 8 then k0_pay6 (grid0.coords ⟨n + 1, hn⟩) (tile m c ⟨n + 1, hn⟩) (zlead m c) (accS c n (Nat.lt_of_succ_lt hn))
    else accS c n (Nat.lt_of_succ_lt hn)

theorem accE_zero (c : Dev nD) (hn : 0 < cfg0.N) : accE m c 0 hn = k0_pay5 (tile m c ⟨0, hn⟩) (zlead m c) (k0_pay2 (F := F)) := rfl
theorem accE_succ (c : Dev nD) (n : ℕ) (hn : n + 1 < cfg0.N) :
    accE m c (n + 1) hn = k0_pay5 (tile m c ⟨n + 1, hn⟩) (zlead m c) (accE m c n (Nat.lt_of_succ_lt hn)) := rfl
theorem accS_zero (c : Dev nD) (hn : 0 < cfg0.N) :
    accS m c 0 hn = k0_pay6 (grid0.coords ⟨0, hn⟩) (tile m c ⟨0, hn⟩) (zlead m c) (k0_pay3 (F := F)) := rfl
theorem accS_succ_lt (c : Dev nD) (n : ℕ) (hn : n + 1 < cfg0.N) (h : n + 1 < 8) :
    accS m c (n + 1) hn = k0_pay6 (grid0.coords ⟨n + 1, hn⟩) (tile m c ⟨n + 1, hn⟩) (zlead m c) (accS m c n (Nat.lt_of_succ_lt hn)) := by
  rw [accS]; exact if_pos h
theorem accS_succ_ge (c : Dev nD) (n : ℕ) (hn : n + 1 < cfg0.N) (h : ¬ n + 1 < 8) :
    accS m c (n + 1) hn = accS m c n (Nat.lt_of_succ_lt hn) := by
  rw [accS]; exact if_neg h

/-- The last grid point. -/
abbrev tL : Fin cfg0.N := ⟨31, by decide⟩

end Cert.KernelIdeal.Hand

end
-- ==== Proof.KI.Data.lean ====
/-
  The pipeline's proof data. The two input windows read one array: window 0 holds the left half of its share and
  window 1 the right half. After the body each input's buffer holds its block; the two result buffers matter at the
  last point only, where they receive the accumulators. Between points the invariant holds the three scratch
  buffers at what the points so far have made of them (before the first point: at anything).
-/
import proofs.«127541_j44513041056397_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The invariant before point `n`: the class invariant before the first point; afterwards the scratch at the
    normalised leading rows and the two accumulators after point `n - 1`, and the generator register. -/
def PhiS (c : Dev nD) : (n : ℕ) → n ≤ cfg0.N → sProp 𝕄
  | 0, _ => Pipeline.ΦA spec0 c
  | n + 1, hn => iprop(iprop(owns (c : Thread nD τ) scZ fullShare (zlead m c) ∗ owns (c : Thread nD τ) scE fullShare (accE m c n hn)
      ∗ owns (c : Thread nD τ) scS fullShare (accS m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scZ fullShare (zlead m c) ∗ owns (c : Thread nD τ) scE fullShare (accE m c n hn)
      ∗ owns (c : Thread nD τ) scS fullShare (accS m c n hn)) ∗ (∃ r, prngReg c r)) := rfl

theorem PhiS_pos (c : Dev nD) (n : ℕ) (h : n ≤ cfg0.N) (hz : n ≠ 0) :
    PhiS m c n h = iprop(iprop(owns (c : Thread nD τ) scZ fullShare (zlead m c) ∗ owns (c : Thread nD τ) scE fullShare (accE m c (n - 1) (by omega))
      ∗ owns (c : Thread nD τ) scS fullShare (accS m c (n - 1) (by omega))) ∗ (∃ r, prngReg c r)) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accE m c t.val t.isLt
    | ⟨3, _⟩ => accS m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accE m c t.val t.isLt := by dsimp only [dats]
theorem after3 (c : Dev nD) (t : Fin cfg0.N) : (dats m 0 c).after 3 t = accS m c t.val t.isLt := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d

/-- The shares: the one array's two halves, the results outright. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

end Cert.KernelIdeal.Hand

end
-- ==== Proof.KI.Stores.lean ====
/-
  Two facts about a buffer accessed whole: a store of the whole buffer, read back, gives the stored value whatever
  was stored before; a load of the whole buffer reads its contents.
-/
import proofs.«127541_j44513041056397_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The whole-buffer rectangle's offsets are zero. -/
theorem off0 : (![0, 0] : Fin 2 → ℕ) = fun _ => 0 := funext fun a => by fin_cases a <;> rfl

/-- A buffer whose last store covered it whole reads as that store's value. -/
theorem read_writes_whole {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A load of the whole buffer reads its contents. -/
theorem readAt_whole {S : Shape} {e : EltTy} (v : View sig .tc .vmem S e) (f : v.ty.Contents (Elt F)) {off : Fin S.rank → ℕ}
    (h : off = fun _ => 0) (inb : ∀ a, off a + S.size a ≤ S.size a) :
    View.readAt (Elt F) v (Rect.unit off S.size inb).toLoadRect f = v.read (Elt F) f := by
  rw [View.readAt_eq_ld, View.ld_unit_zero h inb]

end Cert.KernelIdeal.Hand

end
-- ==== Proof.KI.RunFirst.lean ====
/-
  The body at the first point: it normalises the leading rows into the scratch, zeroes both accumulators, then adds
  the point's exponentials to the row sums and its part above the diagonal to the triangle sum.
-/
import proofs.«127541_j44513041056397_1_alg».proof.Proof.KI.Stores

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_first (c : Dev nD) (i : grid0.Coords) (arg1 : Memref sig .tc .vmem S2048x1024 .f32) (harg1 : arg1.IsWhole) (arg2 : Memref sig .tc .vmem S256x1024 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S2048x1024 .bf16) (harg5 : arg5.IsWhole) (arg6 : Memref sig .tc .vmem S2048x1 .f32) (harg6 : arg6.IsWhole) (arg7 : Memref sig .tc .vmem S1x1 .f32) (harg7 : arg7.IsWhole)
    (h1 : isFirst i) (h2 : isLeading i) (h3 : ¬ isLast i)
    (x0 : Vec F S2048x1024 .f32) (x1 : Vec F S256x1024 .f32) (d2 : Vec F S2048x1 .f32) (d3 : Vec F S1x1 .f32)
    (z : Vec F S2048x1024 .bf16) (e : Vec F S2048x1 .f32) (s : Vec F S1x1 .f32) (K : PUnit → sProp 𝕄) :
    iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare e
        ∗ owns (c : Thread nD τ) arg7 fullShare s
        ∗ (iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare (k0_pay1 x0) ∗ owns (c : Thread nD τ) arg6 fullShare (k0_pay5 x1 (k0_pay1 x0) (k0_pay2 (F := F)))
        ∗ owns (c : Thread nD τ) arg7 fullShare (k0_pay6 i x1 (k0_pay1 x0) (k0_pay3 (F := F)))) -∗ K ⟨⟩))
      ⊢ wp frame (wpE (defs₀ (F := F)) Variants.none c none) Set.univ (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    sl_unfold_words
    rw [read_writes_whole _ _ off0, readAt_whole arg1.view _ off0, hf1]
  isplitl [H6]
  · iexists _; isplitr; swap; · iexact H6
    ipureintro
    rw [read_writes_whole _ _ off0]
    sl_unfold_words
    rw [View.readCov_unit_zero arg5.view off0, View.readCov_unit_zero arg6.view off0, readAt_whole arg2.view _ off0, readAt_whole arg1.view _ off0, hf2, hf1]
  iexists _; isplitr; swap; · iexact H7
  ipureintro
  rw [read_writes_whole _ _ off0]
  sl_unfold_words
  rw [View.readCov_unit_zero arg5.view off0, View.readCov_unit_zero arg7.view off0, readAt_whole arg2.view _ off0, readAt_whole arg1.view _ off0, hf2, hf1]

end Cert.KernelIdeal.Hand

end
-- ==== Proof.KI.RunLead.lean ====
/-
  The body at points one to seven: the row sums take the point's exponentials and the triangle sum the point's part
  above the diagonal.
-/
import proofs.«127541_j44513041056397_1_alg».proof.Proof.KI.Stores

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_lead (c : Dev nD) (i : grid0.Coords) (arg1 : Memref sig .tc .vmem S2048x1024 .f32) (harg1 : arg1.IsWhole) (arg2 : Memref sig .tc .vmem S256x1024 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S2048x1024 .bf16) (harg5 : arg5.IsWhole) (arg6 : Memref sig .tc .vmem S2048x1 .f32) (harg6 : arg6.IsWhole) (arg7 : Memref sig .tc .vmem S1x1 .f32) (harg7 : arg7.IsWhole)
    (h1 : ¬ isFirst i) (h2 : isLeading i) (h3 : ¬ isLast i)
    (x0 : Vec F S2048x1024 .f32) (x1 : Vec F S256x1024 .f32) (d2 : Vec F S2048x1 .f32) (d3 : Vec F S1x1 .f32)
    (z : Vec F S2048x1024 .bf16) (e : Vec F S2048x1 .f32) (s : Vec F S1x1 .f32) (K : PUnit → sProp 𝕄) :
    iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare e
        ∗ owns (c : Thread nD τ) arg7 fullShare s
        ∗ (iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare (k0_pay5 x1 z e)
        ∗ owns (c : Thread nD τ) arg7 fullShare (k0_pay6 i x1 z s)) -∗ K ⟨⟩))
      ⊢ wp frame (wpE (defs₀ (F := F)) Variants.none c none) Set.univ (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    rw [read_writes_whole _ _ off0, readAt_whole arg2.view _ off0, readAt_whole arg5.view _ off0, readAt_whole arg6.view _ off0, hf2, hf5, hf6]
  iexists _; isplitr; swap; · iexact H7
  ipureintro
  rw [read_writes_whole _ _ off0, readAt_whole arg2.view _ off0, readAt_whole arg5.view _ off0, readAt_whole arg7.view _ off0, hf2, hf5, hf7]

end Cert.KernelIdeal.Hand

end
-- ==== Proof.KI.RunMid.lean ====
/-
  The body at a point that is neither the first, nor among the first eight, nor the last: it reads the point's 256
  rows and the stored unit rows, and adds the 256 columns' exponentials to the row sums; nothing else changes.
-/
import proofs.«127541_j44513041056397_1_alg».proof.Proof.KI.Stores

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_mid (c : Dev nD) (i : grid0.Coords) (arg1 : Memref sig .tc .vmem S2048x1024 .f32) (harg1 : arg1.IsWhole) (arg2 : Memref sig .tc .vmem S256x1024 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S2048x1024 .bf16) (harg5 : arg5.IsWhole) (arg6 : Memref sig .tc .vmem S2048x1 .f32) (harg6 : arg6.IsWhole) (arg7 : Memref sig .tc .vmem S1x1 .f32) (harg7 : arg7.IsWhole)
    (h1 : ¬ isFirst i) (h2 : ¬ isLeading i) (h3 : ¬ isLast i)
    (x0 : Vec F S2048x1024 .f32) (x1 : Vec F S256x1024 .f32) (d2 : Vec F S2048x1 .f32) (d3 : Vec F S1x1 .f32)
    (z : Vec F S2048x1024 .bf16) (e : Vec F S2048x1 .f32) (s : Vec F S1x1 .f32) (K : PUnit → sProp 𝕄) :
    iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare e
        ∗ owns (c : Thread nD τ) arg7 fullShare s
        ∗ (iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare (k0_pay5 x1 z e)
        ∗ owns (c : Thread nD τ) arg7 fullShare s) -∗ K ⟨⟩))
      ⊢ wp frame (wpE (defs₀ (F := F)) Variants.none c none) Set.univ (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    rw [read_writes_whole _ _ off0, readAt_whole arg2.view _ off0, readAt_whole arg5.view _ off0, readAt_whole arg6.view _ off0, hf2, hf5, hf6]
  iexists _; isplitr; · ipureintro; exact hf7
  iexact H7

end Cert.KernelIdeal.Hand

end
-- ==== Proof.KI.RunLast.lean ====
/-
  The body at the last point: the row sums take the point's exponentials, and both accumulators are copied into
  the result windows' buffers.
-/
import proofs.«127541_j44513041056397_1_alg».proof.Proof.KI.Stores

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_last (c : Dev nD) (i : grid0.Coords) (arg1 : Memref sig .tc .vmem S2048x1024 .f32) (harg1 : arg1.IsWhole) (arg2 : Memref sig .tc .vmem S256x1024 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S2048x1024 .bf16) (harg5 : arg5.IsWhole) (arg6 : Memref sig .tc .vmem S2048x1 .f32) (harg6 : arg6.IsWhole) (arg7 : Memref sig .tc .vmem S1x1 .f32) (harg7 : arg7.IsWhole)
    (h1 : ¬ isFirst i) (h2 : ¬ isLeading i) (h3 : isLast i)
    (x0 : Vec F S2048x1024 .f32) (x1 : Vec F S256x1024 .f32) (d2 : Vec F S2048x1 .f32) (d3 : Vec F S1x1 .f32)
    (z : Vec F S2048x1024 .bf16) (e : Vec F S2048x1 .f32) (s : Vec F S1x1 .f32) (K : PUnit → sProp 𝕄) :
    iprop(owns (c : Thread nD τ) arg1 fullShare x0 ∗ owns (c : Thread nD τ) arg2 fullShare x1 ∗ owns (c : Thread nD τ) arg3 fullShare d2
        ∗ owns (c : Thread nD τ) arg4 fullShare d3 ∗ owns (c : Thread nD τ) arg5 fullShare z ∗ owns (c : Thread nD τ) arg6 fullShare e
        ∗ owns (c : Thread nD τ) arg7 fullShare s
        ∗ (iprop(owns (c : Thread nD τ) arg1 fullShare x0 ∗ owns (c : Thread nD τ) arg2 fullShare x1 ∗ owns (c : Thread nD τ) arg3 fullShare (k0_pay5 x1 z e)
        ∗ owns (c : Thread nD τ) arg4 fullShare s ∗ owns (c : Thread nD τ) arg5 fullShare z ∗ owns (c : Thread nD τ) arg6 fullShare (k0_pay5 x1 z e)
        ∗ owns (c : Thread nD τ) arg7 fullShare s) -∗ K ⟨⟩))
      ⊢ wp frame (wpE (defs₀ (F := F)) Variants.none c none) Set.univ (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    rw [read_writes_whole _ _ off0]
    sl_unfold_words
    rw [View.readCov_unit_zero arg6.view off0, readAt_whole arg2.view _ off0, readAt_whole arg5.view _ off0, readAt_whole arg6.view _ off0, hf2, hf5, hf6]
  isplitl [H4]
  · iexists _; isplitr; swap; · iexact H4
    ipureintro
    rw [read_writes_whole _ _ off0, readAt_whole arg7.view _ off0, hf7]
  isplitl [H5]
  · iexists _; isplitr; · ipureintro; exact hf5
    iexact H5
  isplitl [H6]
  · iexists _; isplitr; swap; · iexact H6
    ipureintro
    sl_unfold_words
    rw [read_writes_whole _ _ off0, readAt_whole arg2.view _ off0, readAt_whole arg5.view _ off0, readAt_whole arg6.view _ off0, hf2, hf5, hf6]
  iexists _; isplitr; · ipureintro; exact hf7
  iexact H7

end Cert.KernelIdeal.Hand

end
-- ==== Proof.KI.Body.lean ====
/-
  The body obligation at every grid point. The point's place on the grid says which branches the body takes; the
  invariant hands it the scratch at what the points before left (at anything, before the first point) and takes it
  back at what this point makes of it; the input buffers hold their blocks; the result buffers are left alone at
  every point but the last, which stores the accumulators into them.
-/
import proofs.«127541_j44513041056397_1_alg».proof.Proof.KI.RunFirst
import proofs.«127541_j44513041056397_1_alg».proof.Proof.KI.RunLead
import proofs.«127541_j44513041056397_1_alg».proof.Proof.KI.RunMid
import proofs.«127541_j44513041056397_1_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The accumulators, one point after another -/

theorem zlead_first (c : Dev nD) (t : Fin cfg0.N) (hz : t.val = 0) : zlead m c = k0_pay1 (iblk m c 0 t) := by
  obtain ⟨n, hn⟩ := t; obtain rfl : n = 0 := hz; rfl
theorem accE_first (c : Dev nD) (t : Fin cfg0.N) (hz : t.val = 0) :
    accE m c t.val t.isLt = k0_pay5 (iblk m c 1 t) (k0_pay1 (iblk m c 0 t)) (k0_pay2 (F := F)) := by
  obtain ⟨n, hn⟩ := t; obtain rfl : n = 0 := hz; rfl
theorem accS_first (c : Dev nD) (t : Fin cfg0.N) (hz : t.val = 0) :
    accS m c t.val t.isLt = k0_pay6 (grid0.coords t) (iblk m c 1 t) (k0_pay1 (iblk m c 0 t)) (k0_pay3 (F := F)) := by
  obtain ⟨n, hn⟩ := t; obtain rfl : n = 0 := hz; rfl
theorem accE_step (c : Dev nD) (t : Fin cfg0.N) (hz : t.val ≠ 0) :
    accE m c t.val t.isLt = k0_pay5 (iblk m c 1 t) (zlead m c) (accE m c (t.val - 1) (by omega)) := by
  obtain ⟨n, hn⟩ := t
  cases n with
  | zero => exact absurd rfl hz
  | succ n => rfl
theorem accS_step_lt (c : Dev nD) (t : Fin cfg0.N) (hz : t.val ≠ 0) (h : t.val < 8) :
    accS m c t.val t.isLt = k0_pay6 (grid0.coords t) (iblk m c 1 t) (zlead m c) (accS m c (t.val - 1) (by omega)) := by
  obtain ⟨n, hn⟩ := t
  cases n with
  | zero => exact absurd rfl hz
  | succ n => exact accS_succ_lt m c n hn h
theorem accS_step_ge (c : Dev nD) (t : Fin cfg0.N) (hz : t.val ≠ 0) (h : ¬ t.val < 8) :
    accS m c t.val t.isLt = accS m c (t.val - 1) (by omega) := by
  obtain ⟨n, hn⟩ := t
  cases n with
  | zero => exact absurd rfl hz
  | succ n => exact accS_succ_ge m c n hn h

/-! ## The obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live_in0], after0]
  rw [show (dats m 0 c).leavesExact 1 t = owns (c : Thread nD τ) (ms1 t) fullShare ((dats m 0 c).after 1 t) from by
    unfold Dat.leavesExact; rw [live_in1], after1]
  by_cases hz : t.val = 0
  · -- the first point
    have hL : ¬ t.val = 31 := by omega
    have h1 : isFirst (grid0.coords t) := (isFirst_iff t).mpr hz
    have h2 : isLeading (grid0.coords t) := (isLeading_iff t).mpr (by omega)
    have h3 : ¬ isLast (grid0.coords t) := fun h => hL ((isLast_iff t).mp h)
    rw [Dat.leavesExact_idle (dats m 0 c) 2 t (idle_out2 t hL) (noflush_out2 t hL),
      Dat.leavesExact_idle (dats m 0 c) 3 t (idle_out3 t hL) (noflush_out3 t hL)]
    rw [Phi_castSucc m c t, PhiS_zero m c _ _ hz, PhiA_eq, zlead_first m c t hz, accE_first m c t hz, accS_first m c t hz]
    iintro ⟨⟨⟨⟨%z, HZ⟩, ⟨%e, HE⟩, ⟨%s, HS⟩⟩, Hg⟩, Ho, ⟨%d0, H0⟩, ⟨%d1, H1⟩, ⟨%d2, H2⟩, ⟨%d3, H3⟩⟩
    iapply (run_first c (grid0.coords t) _ _ _ _ _ _ _ _ _ _ _ _ _ _ h1 h2 h3 (iblk m c 0 t) (iblk m c 1 t) ((dats m 0 c).before 2 t d2) ((dats m 0 c).before 3 t d3) z e s _)
    isplitl [H0]; · iexact H0
    isplitl [H1]; · iexact H1
    isplitl [H2]; · iexact H2
    isplitl [H3]; · iexact H3
    isplitl [HZ]; · iexact HZ
    isplitl [HE]; · iexact HE
    isplitl [HS]; · iexact HS
    iintro ⟨H0, H1, H2, H3, HZ, HE, HS⟩
    isplitl [HZ HE HS Hg]
    · isplitr [Hg]
      · isplitl [HZ]; · iexact HZ
        isplitl [HE]; · iexact HE
        iexact HS
      · iexact Hg
    isplitl [Ho]; · iexact Ho
    isplitl [H0]; · iexact H0
    isplitl [H1]; · iexact H1
    isplitl [H2]; · iexists d2; iexact H2
    iexists d3; iexact H3
  · rw [Phi_castSucc m c t, PhiS_pos m c _ _ hz]
    have h1 : ¬ isFirst (grid0.coords t) := fun h => hz ((isFirst_iff t).mp h)
    by_cases hl : t.val < 8
    · -- points one to seven
      have hL : ¬ t.val = 31 := by omega
      have h2 : isLeading (grid0.coords t) := (isLeading_iff t).mpr hl
      have h3 : ¬ isLast (grid0.coords t) := fun h => hL ((isLast_iff t).mp h)
      rw [Dat.leavesExact_idle (dats m 0 c) 2 t (idle_out2 t hL) (noflush_out2 t hL),
        Dat.leavesExact_idle (dats m 0 c) 3 t (idle_out3 t hL) (noflush_out3 t hL)]
      rw [accE_step m c t hz, accS_step_lt m c t hz hl]
      iintro ⟨⟨⟨HZ, HE, HS⟩, Hg⟩, Ho, ⟨%d0, H0⟩, ⟨%d1, H1⟩, ⟨%d2, H2⟩, ⟨%d3, H3⟩⟩
      iapply (run_lead c (grid0.coords t) _ _ _ _ _ _ _ _ _ _ _ _ _ _ h1 h2 h3 (iblk m c 0 t) (iblk m c 1 t) ((dats m 0 c).before 2 t d2) ((dats m 0 c).before 3 t d3) (zlead m c) (accE m c (t.val - 1) (by omega)) (accS m c (t.val - 1) (by omega)) _)
      isplitl [H0]; · iexact H0
      isplitl [H1]; · iexact H1
      isplitl [H2]; · iexact H2
      isplitl [H3]; · iexact H3
      isplitl [HZ]; · iexact HZ
      isplitl [HE]; · iexact HE
      isplitl [HS]; · iexact HS
      iintro ⟨H0, H1, H2, H3, HZ, HE, HS⟩
      isplitl [HZ HE HS Hg]
      · isplitr [Hg]
        · isplitl [HZ]; · iexact HZ
          isplitl [HE]; · iexact HE
          iexact HS
        · iexact Hg
      isplitl [Ho]; · iexact Ho
      isplitl [H0]; · iexact H0
      isplitl [H1]; · iexact H1
      isplitl [H2]; · iexists d2; iexact H2
      iexists d3; iexact H3
    · have h2 : ¬ isLeading (grid0.coords t) := fun h => hl ((isLeading_iff t).mp h)
      by_cases hL : t.val = 31
      · -- the last point
        have h3 : isLast (grid0.coords t) := (isLast_iff t).mpr hL
        rw [show (dats m 0 c).leavesExact 2 t = owns (c : Thread nD τ) (ms2 t) fullShare ((dats m 0 c).after 2 t) from by
          unfold Dat.leavesExact; rw [live_out2 t hL], after2]
        rw [show (dats m 0 c).leavesExact 3 t = owns (c : Thread nD τ) (ms3 t) fullShare ((dats m 0 c).after 3 t) from by
          unfold Dat.leavesExact; rw [live_out3 t hL], after3]
        rw [accE_step m c t hz, accS_step_ge m c t hz hl]
        iintro ⟨⟨⟨HZ, HE, HS⟩, Hg⟩, Ho, ⟨%d0, H0⟩, ⟨%d1, H1⟩, ⟨%d2, H2⟩, ⟨%d3, H3⟩⟩
        iapply (run_last c (grid0.coords t) _ _ _ _ _ _ _ _ _ _ _ _ _ _ h1 h2 h3 (iblk m c 0 t) (iblk m c 1 t) ((dats m 0 c).before 2 t d2) ((dats m 0 c).before 3 t d3) (zlead m c) (accE m c (t.val - 1) (by omega)) (accS m c (t.val - 1) (by omega)) _)
        isplitl [H0]; · iexact H0
        isplitl [H1]; · iexact H1
        isplitl [H2]; · iexact H2
        isplitl [H3]; · iexact H3
        isplitl [HZ]; · iexact HZ
        isplitl [HE]; · iexact HE
        isplitl [HS]; · iexact HS
        iintro ⟨H0, H1, H2, H3, HZ, HE, HS⟩
        isplitl [HZ HE HS Hg]
        · isplitr [Hg]
          · isplitl [HZ]; · iexact HZ
            isplitl [HE]; · iexact HE
            iexact HS
          · iexact Hg
        isplitl [Ho]; · iexact Ho
        isplitl [H0]; · iexact H0
        isplitl [H1]; · iexact H1
        isplitl [H2]; · iexact H2
        iexact H3
      · -- the points between
        have h3 : ¬ isLast (grid0.coords t) := fun h => hL ((isLast_iff t).mp h)
        rw [Dat.leavesExact_idle (dats m 0 c) 2 t (idle_out2 t hL) (noflush_out2 t hL),
          Dat.leavesExact_idle (dats m 0 c) 3 t (idle_out3 t hL) (noflush_out3 t hL)]
        rw [accE_step m c t hz, accS_step_ge m c t hz hl]
        iintro ⟨⟨⟨HZ, HE, HS⟩, Hg⟩, Ho, ⟨%d0, H0⟩, ⟨%d1, H1⟩, ⟨%d2, H2⟩, ⟨%d3, H3⟩⟩
        iapply (run_mid c (grid0.coords t) _ _ _ _ _ _ _ _ _ _ _ _ _ _ h1 h2 h3 (iblk m c 0 t) (iblk m c 1 t) ((dats m 0 c).before 2 t d2) ((dats m 0 c).before 3 t d3) (zlead m c) (accE m c (t.val - 1) (by omega)) (accS m c (t.val - 1) (by omega)) _)
        isplitl [H0]; · iexact H0
        isplitl [H1]; · iexact H1
        isplitl [H2]; · iexact H2
        isplitl [H3]; · iexact H3
        isplitl [HZ]; · iexact HZ
        isplitl [HE]; · iexact HE
        isplitl [HS]; · iexact HS
        iintro ⟨H0, H1, H2, H3, HZ, HE, HS⟩
        isplitl [HZ HE HS Hg]
        · isplitr [Hg]
          · isplitl [HZ]; · iexact HZ
            isplitl [HE]; · iexact HE
            iexact HS
          · iexact Hg
        isplitl [Ho]; · iexact Ho
        isplitl [H0]; · iexact H0
        isplitl [H1]; · iexact H1
        isplitl [H2]; · iexists d2; iexact H2
        iexists d3; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Shares.lean ====
/-
  How the one input array reaches two windows. At the region's entry the input's buffer, held whole, is dealt in two
  halves, one to each input window, beside the two result arrays held outright; at its exit the halves — both still
  at the input's contents — are joined again. The buffers no window reads pass by untouched.
-/
import proofs.«127541_j44513041056397_1_alg».proof.Proof.KI.Data
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers behind the windows' arrays: the input once, and the two results. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0_0) ↦{fullShare} W main_v0_0)
          ∗ (((c : Thread nD τ).loc main_v0_1) ↦{fullShare} W main_v0_1)) := by
  unfold Pipeline.arrBufs
  exact bigSep_eq_bigSepL_of_eq [main_arg0, main_v0_0, main_v0_1] (by decide) (by decide) _

/-- The proof data's arrays, window by window: the input's two halves, the results outright. -/
theorem arrays_eq4 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0_0) ↦{fullShare} G 2) ∗ (((c : Thread nD τ).loc main_v0_1) ↦{fullShare} G 3)) := by
  unfold Dat.arrays
  rw [bigSep_W0]
  rw [share0, share1, share2, share3, (arr_whole0 0).set_eq_univ, (arr_whole0 2).set_eq_univ, (arr_whole0 3).set_eq_univ]

/-- ENTRY: the unscoped buffers at the launch contents are the pipeline's arrays at their entry contents — the
    input's share halved — and the rest. -/
theorem enter_arrays (c : Dev nD) :
    (unscopedBufs c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c), arrBufs_eq, arrays_eq4]
  iintro ⟨⟨Ha, Hv0, Hv1⟩, Hrest⟩
  ihave Hs := (pointsTo_share (PosShare.mem_left_op_right fullShare)).1 $$ Ha
  icases Hs with ⟨Hl, Hr⟩
  isplitr [Hrest]
  · isplitl [Hl]; · iexact Hl
    isplitl [Hr]; · iexact Hr
    isplitl [Hv0]; · iexact Hv0
    iexact Hv1
  · iexact Hrest

/-- EXIT: the arrays at contents `G` whose two input components are one buffer's contents, and the rest at `W`, are
    the unscoped buffers at `W`, when `W` is `G` on the arrays. -/
theorem exit_arrays (c : Dev nD) (G : (w : Fin cfg0.W) → Buf (Elt F) ((cfg0.win w).arr.view.loc (c : Thread nD τ)))
    (W : (b : Ref sig .tc) → Buf (Elt F) ((c : Thread nD τ).loc b))
    (h0 : G 0 = W main_arg0) (h1 : G 1 = W main_arg0) (h2 : G 2 = W main_v0_0) (h3 : G 3 = W main_v0_1) :
    iprop((dats m 0 c).arrays G ∗ Pipeline.unscopedRest spec0 c W) ⊢ (unscopedBufs c W : sProp 𝕄) := by
  rw [Pipeline.unscopedBufs_split₀ cfgs 0 winFacts₀0.arr_unscoped c W, arrBufs_eq, arrays_eq4, h0, h1, h2, h3]
  iintro ⟨⟨Hl, Hr, Hv0, Hv1⟩, Hrest⟩
  isplitr [Hrest]
  · isplitl [Hl Hr]
    · iapply (pointsTo_share (PosShare.mem_left_op_right fullShare)).2
      isplitl [Hl] <;> iassumption
    isplitl [Hv0]; · iexact Hv0
    iexact Hv1
  · iexact Hrest

end Cert.KernelIdeal.Hand

end
-- ==== Proof.KI.Launch.lean ====
/-
  The launch: @main is the kernel region followed by eighteen host operations. The region is entered from the
  unscoped buffers at the launch contents — the input dealt in halves to its two windows, the generator register
  into the invariant, everything else passing by — and left with the two result arrays at what the last point wrote
  back and the input joined again; the host operations then run over the buffers as the region left them. Every
  weakly fair execution terminates, the result buffer holds the host operations' term of the region's two results,
  and the input array is as it was.
-/
import proofs.«127541_j44513041056397_1_alg».proof.Proof.KI.Body
import proofs.«127541_j44513041056397_1_alg».proof.Proof.KI.Shares
import Idealize.ShloMosaic.Lib.Pipeline.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The buffers' contents: at launch, after the region, at the end -/

/-- Core `c`'s buffers at launch, as a valuation. -/
abbrev V₀ (c : Dev nD) : Valuation τ sig (Elt F) := fun b => m ((c : Dev nD), b)

/-- What the region does to the buffers, as two writes: the result arrays at their final contents. -/
def regionOps (c : Dev nD) : List (HloOp τ sig (Elt F)) :=
  [StableHlo.nullary main_v0_0 ((dats m 0 c).arrAt 2 cfg0.N), StableHlo.nullary main_v0_1 ((dats m 0 c).arrAt 3 cfg0.N)]

/-- The buffers when the region is left, -/
abbrev V₁ (c : Dev nD) : Valuation τ sig (Elt F) := StableHlo.after (regionOps m c) (V₀ m c)
/-- and at the end. -/
abbrev V₂ (c : Dev nD) : Valuation τ sig (Elt F) := StableHlo.after hostOps1 (V₁ m c)

theorem V₁_v0_0 (c : Dev nD) : V₁ m c (Proc.devRef .tc main_v0_0) = (dats m 0 c).arrAt 2 cfg0.N := by
  unfold V₁ regionOps; after_results
theorem V₁_v0_1 (c : Dev nD) : V₁ m c (Proc.devRef .tc main_v0_1) = (dats m 0 c).arrAt 3 cfg0.N := by
  unfold V₁ regionOps; after_results

/-- The region writes the two result arrays only. -/
theorem V₁_other (c : Dev nD) (b : Ref sig .tc) (h0 : b ≠ main_v0_0) (h1 : b ≠ main_v0_1) :
    V₁ m c (Proc.devRef .tc b) = V₀ m c (Proc.devRef .tc b) :=
  StableHlo.after_of_forall_not_mem (b := Proc.devRef .tc b) (regionOps m c) (V₀ m c) fun op hop => by
    simp only [regionOps, List.mem_cons, List.mem_nil_iff, or_false] at hop
    rcases hop with rfl | rfl <;> simp only [StableHlo.nullary_writes, Finset.mem_singleton] <;>
      exact StableHlo.devRef_ne_of_ne ‹_›

/-- No host operation writes the input. -/
theorem arg0_kept : ∀ op ∈ (hostOps1 (F := F)), Proc.devRef (τ := τ) .tc main_arg0 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

/-- The input reaches the end as launched. -/
theorem V₂_arg0 (c : Dev nD) : V₂ m c (Proc.devRef .tc main_arg0) = m ((c : Thread nD τ).loc main_arg0) :=
  (StableHlo.after_of_forall_not_mem (b := Proc.devRef .tc main_arg0) hostOps1 (V₁ m c) arg0_kept).trans
    (V₁_other m c main_arg0 (by decide) (by decide))

/-- The buffers no window reads are, after the region, what they were. -/
theorem rest_eq (c : Dev nD) :
    (Pipeline.unscopedRest (Ix := Unit) (Name := ℕ) (U := UR sig nD τ) (Lvl := ℕ) spec0 c (fun b => V₁ m c (Proc.devRef .tc b)) : sProp 𝕄)
      = Pipeline.unscopedRest spec0 c (V m c) := by
  unfold Pipeline.unscopedRest
  refine bigSep_congr fun b hb => ?_
  have hb' := (Finset.mem_sdiff.mp hb).2
  show (((c : Thread nD τ).loc b) ↦{fullShare} V₁ m c (Proc.devRef .tc b) : sProp 𝕄) = _
  rw [V₁_other m c b (fun e => hb' (Finset.mem_image.mpr ⟨2, Finset.mem_univ _, e ▸ rfl⟩))
    (fun e => hb' (Finset.mem_image.mpr ⟨3, Finset.mem_univ _, e ▸ rfl⟩))]

/-- The scoped buffers no window stages are the three scratch buffers. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scZ fullShare d) ∗ (∃ d, owns (c : Thread nD τ) scE fullShare d) ∗ (∃ d, owns (c : Thread nD τ) scS fullShare d)) := by
  rw [scopedRest0_eq]; simp only [scZ, scE, scS, owns_whole]; try rfl

/-! ## The segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the generator register and the core owing nothing. -/
abbrev R (c : Dev nD) : sProp 𝕄 := iprop((∃ r, prngReg c r) ∗ ∃ W, owes (c : Thread nD τ) (0 : CellTallies nD τ sig Unit) W)

/-- THE HOST OPERATIONS after the region, over the unscoped buffers. -/
def seg1 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V₁ m) R

/-- The arrays at their final contents and the untouched rest are the buffers as the region leaves them. -/
theorem leave_arrays (c : Dev nD) :
    iprop((dats m 0 c).arrays ((dats m 0 c).arrAt · cfg0.N) ∗ Pipeline.unscopedRest spec0 c (V m c))
      ⊢ (unscopedBufs c (fun b => V₁ m c (Proc.devRef .tc b)) : sProp 𝕄) := by
  rw [← rest_eq m c]
  exact exit_arrays m c _ (fun b => V₁ m c (Proc.devRef .tc b))
    (((dats m 0 c).arrAt_in 0 rfl _).trans (V₁_other m c main_arg0 (by decide) (by decide)).symm)
    (((dats m 0 c).arrAt_in 1 rfl _).trans (V₁_other m c main_arg0 (by decide) (by decide)).symm)
    (V₁_v0_0 m c).symm (V₁_v0_1 m c).symm

set_option backward.isDefEq.respectTransparency.types false in
/-- THE REGION. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (V₁ m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (V₀ m c) = unscopedBufs c (V m c) from (Pipeline.unscopedBufs_held c _).symm]
    iintro ⟨⟨Hub, Hp, HO⟩, -, -⟩
    ihave H := (enter_arrays m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr] <;> iassumption
  hout c := by
    show (dats m 0 c).Φ (Fin.last cfg0.N) ⊢ iprop((∃ r, prngReg c r) ∗ Pipeline.ownSems0 (fun k : PEmpty => k.elim) c ∗ Pipeline.scopedRest spec0 c)
    rw [Pipeline.ownSems0_none, show (dats m 0 c).Φ (Fin.last cfg0.N) = PhiS m c cfg0.N (Nat.le_refl _) from rfl,
      PhiS_pos m c _ _ (by decide), scopedRest_eq]
    iintro ⟨⟨HZ, HE, HS⟩, Hg⟩
    isplitl [Hg]; · iexact Hg
    isplitr; · iempintro
    isplitl [HZ]; · iexists _; iexact HZ
    isplitl [HE]; · iexists _; iexact HE
    iexists _; iexact HS
  hexit c := by
    rw [show StableHlo.held (c : Thread nD τ) (Pipeline.ucRefs τ sig) (V₁ m c) = unscopedBufs c (fun b => V₁ m c (Proc.devRef .tc b)) from (Pipeline.unscopedBufs_held c _).symm]
    iintro ⟨Ha, HO, HY, HZ⟩
    imodintro
    isplitl [Ha HZ]
    · iapply (leave_arrays m c)
      isplitl [Ha] <;> iassumption
    isplitl [HY]; · iexact HY
    unfold Pipeline.Dat.owesAt Pipeline.owesWithin
    icases HO with ⟨%W, -, HO⟩; iexists W; iexact HO

/-- @main as the list of the two. -/
abbrev segs : List (Pipeline.Seg (pcfgs (F := F)) adm (dats m) () defs₀ Variants.none L lv) := [.region (reg0 m), .host (seg1 m)]

/-- The launch element: the pipeline library's, at the staging cells. -/
def u₀ : UR sig nD τ := initOf (Pipeline.cells cfgs cellOf_inj) (Pipeline.launchToks cfgs cellOf_inj)

set_option backward.isDefEq.respectTransparency.types false in
/-- For any float values, from any memory with every semaphore counter at zero: every weakly fair execution of @main
    on the TensorCores terminates, nothing faulting; the result buffer ends at the host operations' term of the
    region's results and the input array as it was. -/
theorem run_main : θ_run defs (onTc (τ := τ) (main (F := F))) ⟨m, fun _ => 0, ρ⟩ (fun r => ∀ c : Dev nD,
      r.2.mem ((c.tc : Thread nD τ).loc main_v14) = V₂ m c (Proc.devRef .tc main_v14)
      ∧ r.2.mem ((c.tc : Thread nD τ).loc main_arg0) = m ((c.tc : Thread nD τ).loc main_arg0)) :=
  Pipeline.θ_run_regions_kit (pcfgs (F := F)) adm (dats m) () cellOf_inj emb₁ defs₀ Variants.none L lv m ρ main (segs m)
    (fun c Q => by rw [main_segs adm (dats m) () Variants.none L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (Pipeline.ucRefs τ sig) (V₂ m c) ∗ ∃ r, prngReg c r))
    (hch := ⟨fun _ => .rfl, fun _ => .rfl, fun c => by
      show iprop(StableHlo.held (c : Thread nD τ) (Pipeline.ucRefs τ sig) (V₂ m c) ∗ R c)
        ⊢ iprop(iprop(StableHlo.held (c : Thread nD τ) (Pipeline.ucRefs τ sig) (V₂ m c) ∗ ∃ r, prngReg c r)
            ∗ ∃ W, owes (c : Thread nD τ) (0 : CellTallies nD τ sig Unit) W)
      iintro ⟨Hh, Hp, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v14) = V₂ m c (Proc.devRef .tc main_v14)
      ∧ s.mem ((c.tc : Thread nD τ).loc main_arg0) = m ((c.tc : Thread nD τ).loc main_arg0))
    (hfin := fun c s' => by
      rw [show StableHlo.held (c : Thread nD τ) (Pipeline.ucRefs τ sig) (V₂ m c) = unscopedBufs c (fun b => V₂ m c (Proc.devRef .tc b)) from (Pipeline.unscopedBufs_held c _).symm]
      unfold unscopedBufs
      iintro ⟨⟨Hh, -⟩, HSI⟩
      ihave Hr := (pointsTo_read_all (Finset.univ.filter fun b : Ref sig .tc => ¬ b.isScoped) (fun b => (c : Thread nD τ).loc b) (fun b => V₂ m c (Proc.devRef .tc b)) s') $$ [Hh HSI]
      · isplitl [Hh] <;> iassumption
      icases Hr with ⟨%hr, HSI⟩
      imodintro
      isplitr; · ipureintro; exact ⟨hr main_v14 (by decide), (hr main_arg0 (by decide)).trans (V₂_arg0 m c)⟩
      iexact HSI)
    (hQ := fun _ h => h)

end Cert.KernelIdeal.Hand

end
-- ==== Proof.KI.FinalArrays.lean ====
/-
  The two result arrays after the run. Each result window is written back once, at the last grid point, and its one
  block is the whole array; so the array ends holding what the last point stored there: the row sums and the sum
  above the diagonal after all 32 points.
-/
import proofs.«127541_j44513041056397_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The row sums' window sits at block (0, 0) at every point. -/
theorem index2_zero : ∀ (t : Fin cfg0.N) (a : Fin 2), win0_2.index t a = 0 :=
  (by decide +kernel : ∀ (t : Fin grid0.N) (a : Fin 2), win0_2.index t a = 0)

/-- The triangle sum's window sits at block (0, 0) at every point. -/
theorem index3_zero : ∀ (t : Fin cfg0.N) (a : Fin 2), win0_3.index t a = 0 :=
  (by decide +kernel : ∀ (t : Fin grid0.N) (a : Fin 2), win0_3.index t a = 0)

/-- A whole array of row sums, read through the window's block at any point, is itself. -/
theorem read_blk2 (t : Fin cfg0.N) (G : Vec F S2048x1 .f32) :
    ((cfg0.win 2).blk t).view.read (Elt F) G = G := by
  funext y
  rw [View.read_apply]
  show G (((cfg0.win 2).blk t).view.emb y) = G y
  congr 1
  funext a
  apply Fin.ext
  match a with
  | ⟨0, _⟩ => show win0_2.index t (0 : Fin 2) * 2048 + 1 * (y 0).val = (y 0).val; rw [index2_zero]; omega
  | ⟨1, _⟩ => show win0_2.index t (1 : Fin 2) * 1 + 1 * (y 1).val = (y 1).val; rw [index2_zero]; omega

/-- The one-element array of the triangle sum, read through the window's block at any point, is itself. -/
theorem read_blk3 (t : Fin cfg0.N) (G : Vec F S1x1 .f32) :
    ((cfg0.win 3).blk t).view.read (Elt F) G = G := by
  funext y
  rw [View.read_apply]
  show G (((cfg0.win 3).blk t).view.emb y) = G y
  congr 1
  funext a
  apply Fin.ext
  match a with
  | ⟨0, _⟩ => show win0_3.index t (0 : Fin 2) * 1 + 1 * (y 0).val = (y 0).val; rw [index3_zero]; omega
  | ⟨1, _⟩ => show win0_3.index t (1 : Fin 2) * 1 + 1 * (y 1).val = (y 1).val; rw [index3_zero]; omega

/-- Only the last point writes the row sums back. -/
theorem last_of_flush2 (t : Fin cfg0.N) (hf : (cfg0.win 2).flush t = true) : t = tL := by
  have h := (flush0_2 t).mp hf
  have hlt : t.val < 32 := t.isLt
  exact Fin.ext (by show t.val = 31; omega)

/-- Only the last point writes the triangle sum back. -/
theorem last_of_flush3 (t : Fin cfg0.N) (hf : (cfg0.win 3).flush t = true) : t = tL := by
  have h := (flush0_3 t).mp hf
  have hlt : t.val < 32 := t.isLt
  exact Fin.ext (by show t.val = 31; omega)

/-- What a write-back of the row sums writes is the block of the accumulator after the last point. -/
theorem flushed2_eq (c : Dev nD) (t : Fin cfg0.N) (hf : (cfg0.win 2).flush t = true) :
    (dats m 0 c).flushed 2 t = ((cfg0.win 2).blk t).view.read (Elt F) (accE m c 31 (by decide)) := by
  obtain rfl := last_of_flush2 t hf
  rw [read_blk2]
  show (dats m 0 c).after 2 tL = _
  rw [after2]

/-- What a write-back of the triangle sum writes is the block of the accumulator after the last point. -/
theorem flushed3_eq (c : Dev nD) (t : Fin cfg0.N) (hf : (cfg0.win 3).flush t = true) :
    (dats m 0 c).flushed 3 t = ((cfg0.win 3).blk t).view.read (Elt F) (accS m c 31 (by decide)) := by
  obtain rfl := last_of_flush3 t hf
  rw [read_blk3]
  show (dats m 0 c).after 3 tL = _
  rw [after3]

/-- Every index of the row sums' array lies in the window's block at any point: the block is the array. -/
theorem mem_blk2 (t : Fin cfg0.N) (i : S2048x1.Idx) : i ∈ ((cfg0.win 2).blk t).view.set := by
  show i ∈ ((View.whole main_v0_0).slice (win0_2.rect t)).set
  rw [View.set_slice_whole, Rect.mem_set_unit]
  intro a
  have h0 : (i 0).val < 2048 := (i 0).isLt
  have h1 : (i 1).val < 1 := (i 1).isLt
  match a with
  | ⟨0, _⟩ => show win0_2.index t (0 : Fin 2) * 2048 ≤ (i 0).val ∧ (i 0).val < win0_2.index t (0 : Fin 2) * 2048 + 2048; rw [index2_zero]; omega
  | ⟨1, _⟩ => show win0_2.index t (1 : Fin 2) * 1 ≤ (i 1).val ∧ (i 1).val < win0_2.index t (1 : Fin 2) * 1 + 1; rw [index2_zero]; omega

/-- The one index of the triangle sum's array lies in the window's block at any point. -/
theorem mem_blk3 (t : Fin cfg0.N) (i : S1x1.Idx) : i ∈ ((cfg0.win 3).blk t).view.set := by
  show i ∈ ((View.whole main_v0_1).slice (win0_3.rect t)).set
  rw [View.set_slice_whole, Rect.mem_set_unit]
  intro a
  have h0 : (i 0).val < 1 := (i 0).isLt
  have h1 : (i 1).val < 1 := (i 1).isLt
  match a with
  | ⟨0, _⟩ => show win0_3.index t (0 : Fin 2) * 1 ≤ (i 0).val ∧ (i 0).val < win0_3.index t (0 : Fin 2) * 1 + 1; rw [index3_zero]; omega
  | ⟨1, _⟩ => show win0_3.index t (1 : Fin 2) * 1 ≤ (i 1).val ∧ (i 1).val < win0_3.index t (1 : Fin 2) * 1 + 1; rw [index3_zero]; omega

/-- The row sums' array ends at the accumulator after the last point. -/
theorem arrAt2_final (c : Dev nD) : (dats m 0 c).arrAt 2 cfg0.N = accE m c 31 (by decide) :=
  (dats m 0 c).arrAt_eq_of_cover 2 (accE m c 31 (by decide)) (flushed2_eq m c)
    fun i => ⟨tL, (flush0_2 tL).mpr rfl, mem_blk2 tL i⟩

/-- The triangle sum's array ends at the accumulator after the last point. -/
theorem arrAt3_final (c : Dev nD) : (dats m 0 c).arrAt 3 cfg0.N = accS m c 31 (by decide) :=
  (dats m 0 c).arrAt_eq_of_cover 3 (accS m c 31 (by decide)) (flushed3_eq m c)
    fun i => ⟨tL, (flush0_3 tL).mpr rfl, mem_blk3 tL i⟩

end Cert.KernelIdeal.Hand

end
-- ==== Proof.Spec.lean ====
/-
  The mathematics of both programs, over a matrix `X` of 8192 rows of 1024 extended reals.

  Each row is scaled to unit length; `sim i j` is twice the inner product of rows `i` and `j` (the cosine
  similarity over the temperature one half). For each of the first 2048 rows the loss needs the sum over ALL rows
  `j` of `exp (sim i j)` less the term `j = i`, and once the sum of `sim i j` over `i < j < 2048`.

  The kernel scales a row by the reciprocal square root of its sum of squares, multiplies the inner product by two,
  and takes the diagonal term to be `exp 2` (a unit row's inner product with itself is one). The reference divides
  a row by the square root, divides the inner product by one half, and reads the diagonal term off the matrix.
  On a matrix of reals whose rows all have a positive sum of squares these are the same numbers (`den_eq`,
  `tri_eq`): with `s` the sum of squares, `x · (√s)⁻¹ = x / √s`, `y · 2 = y / (1/2)`, and
  `∑ (x_d (√s)⁻¹)² = s · (√s)⁻² = 1`.
-/
import Idealize.ShloMosaic.PureOps.Ideal
import Idealize.ShloMosaic.Lib.ValueIdx

noncomputable section

namespace Cert.Spec

open Idealize.ShloMosaic

/-- A matrix of 8192 rows and 1024 columns. -/
abbrev Mat : Type := Fin 8192 → Fin 1024 → EReal

/-- The binary32 words for 2.0 and 0.5 the two programs carry. -/
abbrev two : EReal := Ideal.ofBits .f32 0x40000000#32
abbrev half : EReal := Ideal.ofBits .f32 0x3F000000#32

/-- One of the first 2048 rows, as a row of the whole matrix. -/
abbrev up (i : Fin 2048) : Fin 8192 := Fin.castLE (by decide) i

/-- A row's sum of squares. -/
def sumsq (X : Mat) (r : Fin 8192) : EReal := ∑ d : Fin 1024, X r d * X r d

/-- A row scaled to unit length, the kernel's way: times the reciprocal square root of the sum of squares. -/
def unitK (X : Mat) (r : Fin 8192) (d : Fin 1024) : EReal := X r d * Ideal.rsqrt (sumsq X r)

/-- The same, the reference's way: divided by the square root. -/
def unitR (X : Mat) (r : Fin 8192) (d : Fin 1024) : EReal := Ideal.div (X r d) (Ideal.sqrt (sumsq X r))

/-- Similarity over the temperature, the kernel's way: the inner product times two. -/
def simK (X : Mat) (i j : Fin 8192) : EReal := (∑ d : Fin 1024, unitK X i d * unitK X j d) * two

/-- The same, the reference's way: the inner product divided by one half. -/
def simR (X : Mat) (i j : Fin 8192) : EReal := Ideal.div (∑ d : Fin 1024, unitR X i d * unitR X j d) half

/-- Row `i`'s sum of `exp (sim i j)` over every row `j`. -/
def rowExpK (X : Mat) (i : Fin 2048) : EReal := ∑ j : Fin 8192, Ideal.exp (simK X (up i) j)
def rowExpR (X : Mat) (i : Fin 2048) : EReal := ∑ j : Fin 8192, Ideal.exp (simR X (up i) j)

/-- The denominators: the row sum less the diagonal term — for the kernel the constant `exp 2`, for the reference the
    entry itself. -/
def denK (X : Mat) (i : Fin 2048) : EReal := rowExpK X i - Ideal.exp two
def denR (X : Mat) (i : Fin 2048) : EReal := rowExpR X i - Ideal.exp (simR X (up i) (up i))

/-- The sum of the similarities strictly above the diagonal of the leading 2048 × 2048 block. -/
def triK (X : Mat) : EReal := ∑ i : Fin 2048, ∑ j : Fin 2048, if i < j then simK X (up i) (up j) else 0
def triR (X : Mat) : EReal := ∑ i : Fin 2048, ∑ j : Fin 2048, if i < j then simR X (up i) (up j) else 0

/-- What the precondition says of the matrix: every entry is a real number and no row is zero. -/
structure Admissible (X : Mat) : Prop where
  real : ∀ r d, ∃ a : ℝ, X r d = (a : EReal)
  pos : ∀ r, 0 < sumsq X r

end Cert.Spec

end
-- ==== Proof.KI.TileValue.lean ====
/-
  The kernel's blocks and one point's similarities, read at an index on the extended reals: window 0's block is the
  leading 2048 rows of the input, window 1's block at point `t` is rows 256 t … 256 t + 255; the rows the first point
  stores are the leading rows scaled to unit length; and the point's 2048 × 256 product, times two, is the similarity
  of a leading row with a row of the point's block.
-/
import proofs.«127541_j44513041056397_1_alg».proof.Proof.KI.Kit
import proofs.«127541_j44513041056397_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The input array as a matrix. -/
abbrev xmat : Cert.Spec.Mat := fun r d => (V m c main_arg0 : S8192x1024.Idx → EReal) (ix2 r d)

/-- Row `jl` of point `t`'s block, as a row of the input. -/
def col (t : Fin cfg0.N) (jl : Fin 256) : Fin 8192 :=
  ⟨256 * t.val + jl.val, by have h1 := t.isLt; have h2 : cfg0.N = 32 := N_0; have h3 := jl.isLt; omega⟩

/-! ## The blocks, read off the array -/

/-- The two input windows' block indices over the grid: window 0 never moves; window 1's row block is the point. -/
theorem idx_win : ∀ t : Fin cfg0.N, win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

/-- Window 0's block is the leading rows, at every point. -/
theorem lead_apply (t : Fin cfg0.N) (p : Fin 2048) (q : Fin 1024) :
    lead m c t (ix2 p q) = xmat m c (Cert.Spec.up p) q := by
  obtain ⟨e0, e1, e2, e3⟩ := idx_win t
  show V m c main_arg0 (((cfg0.win 0).blk t).view.emb (ix2 p q)) = V m c main_arg0 (ix2 (Cert.Spec.up p) q)
  refine congrArg _ (funext fun a => Fin.ext ?_)
  match a with
  | ⟨0, _⟩ => show win0_0.index t (0 : Fin 2) * 2048 + 1 * p.val = p.val; omega
  | ⟨1, _⟩ => show win0_0.index t (1 : Fin 2) * 1024 + 1 * q.val = q.val; omega

/-- Window 1's block at point `t` is rows `256 t` onwards. -/
theorem tile_apply (t : Fin cfg0.N) (p : Fin 256) (q : Fin 1024) :
    tile m c t (ix2 p q) = xmat m c (col t p) q := by
  obtain ⟨e0, e1, e2, e3⟩ := idx_win t
  show V m c main_arg0 (((cfg0.win 1).blk t).view.emb (ix2 p q)) = V m c main_arg0 (ix2 (col t p) q)
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * q.val = q.val; omega

/-! ## A vector as a column, and a column repeated along the rows -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A block's rows scaled to unit length -/

/-- The first point's payload at `(p, q)`: the entry times the reciprocal square root of its row's sum of squares. -/
theorem rownorm_apply (x : Vec Ideal S2048x1024 .f32) (p : Fin 2048) (q : Fin 1024) :
    (k0_pay1 x : S2048x1024.Idx → EReal) (ix2 p q) = x (ix2 p q) * Ideal.rsqrt (∑ d : Fin 1024, x (ix2 p d) * x (ix2 p d)) := by
  unfold k0_pay1
  simp only [shapeCast_self]
  show x (ix2 p q) * broadcastTo S2048x1024 _ broadcasts_S2048x1_S2048x1024 (ix2 p q) = _
  congr 1
  refine (broadcastTo_a1_ab_apply _ _ p q).trans ?_
  show FloatOps.rsqrt (shapeCast S2048x1 _ _ (ix2 p (0 : Fin 1))) = _
  rw [Ideal.rsqrt_def]
  congr 1
  refine (shapeCast_a_a1_apply _ _ p 0).trans ?_
  refine (Ideal.multiReduction_add_single _ _ _ _ _ _).trans ?_
  refine Finset.sum_congr rfl fun d _ => ?_
  have e : reduces_S2048x1024_S2048.lift (ix1 p) d = ix2 p d := funext fun a => Fin.ext (by
    match a with
    | ⟨0, _⟩ => rfl
    | ⟨1, _⟩ => rfl)
  rw [e]; rfl

/-! ## The point's product: the operand indices of the contraction -/

/-- The left operand is read at the result's row … -/
theorem lhs_dot_0 (i : S2048x256.Idx) (q : dot_S2048x1024_S256x1024_S2048x256_1_1_0_0_n_n.contr.Idx) :
    (dot_S2048x1024_S256x1024_S2048x256_1_1_0_0_n_n.lhsIdx i q 0).val = (i 0).val := by
  unfold DotDims.lhsIdx
  rw [dif_neg (show ¬(0 : Fin S2048x1024.rank) ∈ dot_S2048x1024_S256x1024_S2048x256_1_1_0_0_n_n.lhsBatch by decide), dif_pos (show (0 : Fin S2048x1024.rank) ∈ dot_S2048x1024_S256x1024_S2048x256_1_1_0_0_n_n.lhsNonContracting by decide)]
  rfl
/-- … and the contraction's coordinate; -/
theorem lhs_dot_1 (i : S2048x256.Idx) (q : dot_S2048x1024_S256x1024_S2048x256_1_1_0_0_n_n.contr.Idx) :
    (dot_S2048x1024_S256x1024_S2048x256_1_1_0_0_n_n.lhsIdx i q 1).val = (q ⟨0, by decide⟩).val :=
  dot_S2048x1024_S256x1024_S2048x256_1_1_0_0_n_n.lhsIdx_val_of_single rfl i q
/-- the right operand at the result's column (a row of the point's block) … -/
theorem rhs_dot_0 (i : S2048x256.Idx) (q : dot_S2048x1024_S256x1024_S2048x256_1_1_0_0_n_n.contr.Idx) :
    (dot_S2048x1024_S256x1024_S2048x256_1_1_0_0_n_n.rhsIdx i q 0).val = (i 1).val := by
  unfold DotDims.rhsIdx
  rw [dif_neg (show ¬(0 : Fin S256x1024.rank) ∈ dot_S2048x1024_S256x1024_S2048x256_1_1_0_0_n_n.rhsBatch by decide), dif_pos (show (0 : Fin S256x1024.rank) ∈ dot_S2048x1024_S256x1024_S2048x256_1_1_0_0_n_n.rhsNonContracting by decide)]
  rfl
/-- … and the contraction's coordinate. -/
theorem rhs_dot_1 (i : S2048x256.Idx) (q : dot_S2048x1024_S256x1024_S2048x256_1_1_0_0_n_n.contr.Idx) :
    (dot_S2048x1024_S256x1024_S2048x256_1_1_0_0_n_n.rhsIdx i q 1).val = (q ⟨0, by decide⟩).val :=
  dot_S2048x1024_S256x1024_S2048x256_1_1_0_0_n_n.rhsIdx_val_of_single rfl i q

/-- The point's 256 rows scaled to unit length, as the payload spells it. -/
def znorm (v3 : Vec Ideal S256x1024 .f32) : FVec Ideal S256x1024 .bf16 :=
  truncf .bf16 (mulf v3 (broadcastTo S256x1024 (rsqrt (shapeCast S256x1 (multiReduction (F := Ideal) .add [1] S256 (mulf v3 v3) 0x00000000#32 reduces_S256x1024_S256 (.inl rfl) rfl) shapeCasts_S256_S256x1)) broadcasts_S256x1_S256x1024)) bitsLt_bf16_f32

/-- At `(jl, d)`: the entry times the reciprocal square root of its row's sum of squares. -/
theorem znorm_apply (v3 : Vec Ideal S256x1024 .f32) (jl : Fin 256) (d : Fin 1024) :
    (znorm v3 : S256x1024.Idx → EReal) (ix2 jl d) = v3 (ix2 jl d) * Ideal.rsqrt (∑ e : Fin 1024, v3 (ix2 jl e) * v3 (ix2 jl e)) := by
  unfold znorm
  show v3 (ix2 jl d) * broadcastTo S256x1024 _ broadcasts_S256x1_S256x1024 (ix2 jl d) = _
  congr 1
  refine (broadcastTo_a1_ab_apply _ _ jl d).trans ?_
  show FloatOps.rsqrt (shapeCast S256x1 _ _ (ix2 jl (0 : Fin 1))) = _
  rw [Ideal.rsqrt_def]
  congr 1
  refine (shapeCast_a_a1_apply _ _ jl 0).trans ?_
  refine (Ideal.multiReduction_add_single _ _ _ _ _ _).trans ?_
  refine Finset.sum_congr rfl fun e _ => ?_
  have h : reduces_S256x1024_S256.lift (ix1 jl) e = ix2 jl e := funext fun a => Fin.ext (by
    match a with
    | ⟨0, _⟩ => rfl
    | ⟨1, _⟩ => rfl)
  rw [h]; rfl

/-- The point's payload: the product of the stored rows with the point's unit rows, times two. -/
theorem pay4_eq (v3 : Vec Ideal S256x1024 .f32) (v11 : Vec Ideal S2048x1024 .bf16) :
    k0_pay4 v3 v11 = mulf (matmul (φ₁ := .bf16) dot_S2048x1024_S256x1024_S2048x256_1_1_0_0_n_n none v11 (znorm v3) (constant (F := Ideal) S2048x256 .f32 0x00000000#32))
      (broadcast S2048x256 (Scalar.ofBits (F := Ideal) .f32 0x40000000#32)) := rfl

/-- The point's payload at `(p, jl)`: the inner product of stored row `p` with unit row `jl` of the point's block, times two. -/
theorem pay4_apply (v3 : Vec Ideal S256x1024 .f32) (v11 : Vec Ideal S2048x1024 .bf16) (p : Fin 2048) (jl : Fin 256) :
    (k0_pay4 v3 v11 : S2048x256.Idx → EReal) (ix2 p jl)
      = (∑ d : Fin 1024, v11 (ix2 p d) * (v3 (ix2 jl d) * Ideal.rsqrt (∑ e : Fin 1024, v3 (ix2 jl e) * v3 (ix2 jl e)))) * Cert.Spec.two := by
  rw [pay4_eq]
  show FloatOps.matmul (φ₁ := .bf16) dot_S2048x1024_S256x1024_S2048x256_1_1_0_0_n_n none v11 (znorm v3) (constant (F := Ideal) S2048x256 .f32 0x00000000#32) (ix2 p jl) * Cert.Spec.two = _
  congr 1
  rw [Ideal.matmul_constant_zero_apply, ← Equiv.sum_comp (contrEquiv1 dot_S2048x1024_S256x1024_S2048x256_1_1_0_0_n_n 1024 rfl rfl).symm]
  refine Finset.sum_congr rfl fun k _ => ?_
  have hk := contrEquiv1_symm_val dot_S2048x1024_S256x1024_S2048x256_1_1_0_0_n_n 1024 rfl rfl k
  have el : dot_S2048x1024_S256x1024_S2048x256_1_1_0_0_n_n.lhsIdx (ix2 p jl) ((contrEquiv1 dot_S2048x1024_S256x1024_S2048x256_1_1_0_0_n_n 1024 rfl rfl).symm k) = ix2 p k := funext fun a => Fin.ext (by
    match a with
    | ⟨0, _⟩ => exact lhs_dot_0 _ _
    | ⟨1, _⟩ => exact (lhs_dot_1 _ _).trans hk)
  have er : dot_S2048x1024_S256x1024_S2048x256_1_1_0_0_n_n.rhsIdx (ix2 p jl) ((contrEquiv1 dot_S2048x1024_S256x1024_S2048x256_1_1_0_0_n_n 1024 rfl rfl).symm k) = ix2 jl k := funext fun a => Fin.ext (by
    match a with
    | ⟨0, _⟩ => exact rhs_dot_0 _ _
    | ⟨1, _⟩ => exact (rhs_dot_1 _ _).trans hk)
  rw [el, er, znorm_apply]

/-! ## The stored rows and one point's similarities -/

/-- The rows the first point stores: the leading rows scaled to unit length. -/
theorem zlead_apply (p : Fin 2048) (q : Fin 1024) :
    (zlead m c : S2048x1024.Idx → EReal) (ix2 p q) = Cert.Spec.unitK (xmat m c) (Cert.Spec.up p) q := by
  unfold zlead
  refine (rownorm_apply (lead m c t₀) p q).trans ?_
  show lead m c t₀ (ix2 p q) * Ideal.rsqrt _
    = xmat m c (Cert.Spec.up p) q * Ideal.rsqrt (Cert.Spec.sumsq (xmat m c) (Cert.Spec.up p))
  refine congrArg₂ (· * ·) (lead_apply m c t₀ p q) (congrArg Ideal.rsqrt ?_)
  exact Finset.sum_congr rfl fun d _ => by rw [lead_apply m c t₀ p d]

/-- One point's similarities: leading row `p` against row `jl` of the point's block. -/
theorem sim_apply (t : Fin cfg0.N) (p : Fin 2048) (jl : Fin 256) :
    (k0_pay4 (tile m c t) (zlead m c) : S2048x256.Idx → EReal) (ix2 p jl) = Cert.Spec.simK (xmat m c) (Cert.Spec.up p) (col t jl) := by
  refine (pay4_apply (tile m c t) (zlead m c) p jl).trans ?_
  unfold Cert.Spec.simK
  congr 1
  refine Finset.sum_congr rfl fun d _ => ?_
  refine congrArg₂ (· * ·) (zlead_apply m c p d) ?_
  show tile m c t (ix2 jl d) * Ideal.rsqrt _
    = xmat m c (col t jl) d * Ideal.rsqrt (Cert.Spec.sumsq (xmat m c) (col t jl))
  refine congrArg₂ (· * ·) (tile_apply m c t jl d) (congrArg Ideal.rsqrt ?_)
  exact Finset.sum_congr rfl fun e _ => by rw [tile_apply m c t jl e]

end Cert.KernelIdeal.Hand

end
-- ==== Proof.KI.ExpValue.lean ====
/-
  The row sums of exponentials after the last point: the 32 points add, 256 columns each, the sum over all 8192 rows.

  One point's update reads, at row `i`, the sums so far plus the 256 exponentials of the point's similarities; the first
  point starts from zero. By induction the accumulator after point `n` holds, at row `i`, the exponentials against
  rows `0 … 256 (n + 1) - 1` of the input, grouped as `n + 1` runs of 256; after the last point the 32 runs of 256 are
  regrouped, through the bijection `(t, l) ↦ 256 t + l` of `Fin 32 × Fin 256` with `Fin 8192`, into the one sum over
  all 8192 rows.
-/
import proofs.«127541_j44513041056397_1_alg».proof.Proof.KI.TileValue
import Idealize.ShloMosaic.Lib.ValueIdx
import Idealize.ShloMosaic.Lib.Pipeline.Value
import Idealize.ShloMosaic.PureOps.Ideal.Laws
import Mathlib.Data.Fintype.BigOperators
import Mathlib.Logic.Equiv.Fin.Basic

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

namespace ExpV

/-- The keepdims column cast [2048] → [2048, 1] read at (i, 0). -/
theorem colCast_apply (v : FVec Ideal S2048 .f32) (h : S2048.ShapeCasts S2048x1) (i : Fin 2048) :
    (shapeCast S2048x1 v h : S2048x1.Idx → EReal) (ix2 i 0) = v (ix1 i) := by
  refine shapeCast_apply v h (ix2 i (0 : Fin 1)) (ix1 i) ?_
  rw [Shape.rowMajor_val_two, Shape.rowMajor_val_one]
  show i.val = i.val * 1 + 0
  omega

/-- One point's update of the row sums: the sums so far plus the 256 exponentials of the point's similarities. -/
theorem pay5_apply (v3 : Vec Ideal S256x1024 .f32) (v11 : Vec Ideal S2048x1024 .bf16) (v16 : Vec Ideal S2048x1 .f32) (i : Fin 2048) :
    (k0_pay5 v3 v11 v16 : S2048x1.Idx → EReal) (ix2 i 0)
      = v16 (ix2 i 0) + ∑ jl : Fin 256, Ideal.exp ((k0_pay4 v3 v11 : S2048x256.Idx → EReal) (ix2 i jl)) := by
  unfold k0_pay5
  rw [shapeCast_self]
  refine (addf_apply _ _ _).trans ?_
  refine congrArg (v16 (ix2 i 0) + ·) ?_
  refine (colCast_apply _ _ i).trans ?_
  refine (Ideal.multiReduction_add_single _ _ _ _ _ _).trans ?_
  refine Finset.sum_congr rfl fun k _ => ?_
  exact congrArg (fun j => Ideal.exp ((k0_pay4 v3 v11 : S2048x256.Idx → EReal) j)) (Shape.idx_ext₂ rfl rfl)

/-- The zero splat the first point starts the row sums from. -/
theorem pay2_apply (i : Fin 2048) : ((k0_pay2 (F := Ideal)) : S2048x1.Idx → EReal) (ix2 i 0) = 0 := by
  unfold k0_pay2
  rw [shapeCast_self]
  exact Ideal.ofBits_zero_f32

/-- Row `i`'s exponential against row `k` of the input, as a function of the natural number `k` (zero past the last row). -/
def expAt (X : Cert.Spec.Mat) (i : Fin 2048) (k : ℕ) : EReal :=
  if h : k < 8192 then Ideal.exp (Cert.Spec.simK X (Cert.Spec.up i) ⟨k, h⟩) else 0

theorem expAt_col (X : Cert.Spec.Mat) (i : Fin 2048) (t : Fin cfg0.N) (jl : Fin 256) :
    Ideal.exp (Cert.Spec.simK X (Cert.Spec.up i) (col t jl)) = expAt X i (256 * t.val + jl.val) := by
  unfold expAt
  rw [dif_pos (show 256 * t.val + jl.val < 8192 from (col t jl).isLt)]
  rfl

theorem expAt_fin (X : Cert.Spec.Mat) (i : Fin 2048) (j : Fin 8192) :
    expAt X i j.val = Ideal.exp (Cert.Spec.simK X (Cert.Spec.up i) j) := by
  unfold expAt
  rw [dif_pos j.isLt]

/-- 32 runs of 256 consecutive terms are the 8192 terms. -/
theorem regroup (g : ℕ → EReal) :
    ∑ t ∈ Finset.range 32, ∑ jl : Fin 256, g (256 * t + jl.val) = ∑ j : Fin 8192, g j.val := by
  calc ∑ t ∈ Finset.range 32, ∑ jl : Fin 256, g (256 * t + jl.val)
      = ∑ t : Fin 32, ∑ jl : Fin 256, g (256 * t.val + jl.val) :=
        (Fin.sum_univ_eq_sum_range (fun t => ∑ jl : Fin 256, g (256 * t + jl.val)) 32).symm
    _ = ∑ p : Fin 32 × Fin 256, g (256 * p.1.val + p.2.val) :=
        (Fintype.sum_prod_type (fun p : Fin 32 × Fin 256 => g (256 * p.1.val + p.2.val))).symm
    _ = ∑ p : Fin 32 × Fin 256, g ((finProdFinEquiv p).val) :=
        Finset.sum_congr rfl fun p _ => by rw [finProdFinEquiv_apply_val, add_comm]
    _ = ∑ j : Fin (32 * 256), g j.val := Equiv.sum_comp finProdFinEquiv (fun j : Fin (32 * 256) => g j.val)
    _ = ∑ j : Fin 8192, g j.val := rfl

/-- After point `n` the accumulator holds the exponentials against the rows of points `0 … n`. -/
theorem accE_apply (i : Fin 2048) : ∀ (n : ℕ) (hn : n < cfg0.N),
    (accE m c n hn : S2048x1.Idx → EReal) (ix2 i 0)
      = ∑ t ∈ Finset.range (n + 1), ∑ jl : Fin 256, expAt (xmat m c) i (256 * t + jl.val)
  | 0, hn => by
    rw [accE_zero, Finset.sum_range_one]
    refine (pay5_apply _ _ _ i).trans ?_
    rw [pay2_apply, zero_add]
    refine Finset.sum_congr rfl fun jl _ => ?_
    rw [sim_apply]
    exact expAt_col _ i ⟨0, hn⟩ jl
  | n + 1, hn => by
    rw [accE_succ, Finset.sum_range_succ]
    refine (pay5_apply _ _ _ i).trans ?_
    rw [accE_apply i n (Nat.lt_of_succ_lt hn)]
    refine congrArg (_ + ·) ?_
    refine Finset.sum_congr rfl fun jl _ => ?_
    rw [sim_apply]
    exact expAt_col _ i ⟨n + 1, hn⟩ jl

end ExpV

open ExpV in
/-- After the last point the accumulator holds each leading row's sum of `exp (sim i j)` over every row `j`. -/
theorem accE_last (i : Fin 2048) :
    (accE m c 31 (by decide) : S2048x1.Idx → EReal) (ix2 i 0) = Cert.Spec.rowExpK (xmat m c) i := by
  rw [accE_apply m c i 31 (by decide)]
  refine (regroup (expAt (xmat m c) i)).trans ?_
  unfold Cert.Spec.rowExpK
  exact Finset.sum_congr rfl fun j _ => expAt_fin _ i j

end Cert.KernelIdeal.Hand

end
-- ==== Proof.KI.TriValue.lean ====
/-
  The sum above the diagonal after the last point: the first eight points add, each its 256 columns' entries with
  row index below column index; later points add nothing.

  One point's store reads, at its one index, the accumulator plus the sum over the 2048 rows p and the point's 256
  columns jl of the similarity at (p, jl) where p < jl + 256 k and zero elsewhere: the two lane sums are sums over a
  coordinate, the mask's signed word compare is the compare of the naturals (every word in it is below 2 ^ 31), and
  the zero word is zero. Column jl of point t is column 256 t + jl of the leading 2048 × 2048 block, so the eight
  points' parts, regrouped by rows, are the rows' sums over all 2048 columns above the diagonal.
-/
import proofs.«127541_j44513041056397_1_alg».proof.Proof.KI.TileValue
import Idealize.ShloMosaic.Lib.StableHlo.Predicate

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

namespace Tri

/-! ## Words and indices -/

/-- The mask's word compare, on the sizes at hand, is the compare of the naturals. -/
theorem mask_word (p jl k : ℕ) (hp : p < 2048) (hjl : jl < 256) (hk : k < 8) :
    IntOp.cmpi .slt (BitVec.ofNat 32 p) (IntOp.addi (BitVec.ofNat 32 jl) (Scalar.muli (BitVec.ofNat 32 k) 256#32)) = 1#1
      ↔ p < jl + 256 * k := by
  have h1 : (BitVec.ofNat 32 p).toNat = p := by simp [BitVec.toNat_ofNat]; omega
  have h2 : (IntOp.addi (BitVec.ofNat 32 jl) (Scalar.muli (BitVec.ofNat 32 k) 256#32)).toNat = jl + 256 * k := by
    simp only [IntOp.addi, Scalar.muli, IntOp.muli, BitVec.toNat_add, BitVec.toNat_mul, BitVec.toNat_ofNat]
    omega
  rw [StableHlo.Predicate.slt_iff_toNat (by rw [h1]; omega) (by rw [h2]; omega), h1, h2]

/-- A vector of a entries cast to a column of a rows reads, at (p, u), the operand at p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The index over row p of the row sums with column jl put back is (p, jl). -/
theorem lift_cols (p : Fin 2048) (jl : Fin 256) :
    reduces_S2048x256_S2048.lift (ix1 p) jl = ix2 p jl := by
  funext c; apply Fin.ext
  match c with
  | ⟨0, _⟩ => rfl
  | ⟨1, _⟩ => rfl

/-- The index over the one entry of the column sum with row p put back is (p, 0). -/
theorem lift_rows (u : Fin 1) (p : Fin 2048) :
    reduces_S2048x1_S1.lift (ix1 u) p = ix2 p (0 : Fin 1) := by
  funext c; apply Fin.ext
  match c with
  | ⟨0, _⟩ => rfl
  | ⟨1, _⟩ => show (u : ℕ) = 0; omega

/-- The mask at (p, jl): the word compare of the row index with the column index moved by w. -/
theorem mask_at (w : BitVec 32) (p : Fin 2048) (jl : Fin 256) :
    (cmpi .slt (iota .tc S2048x256 32 [0] iota_S2048x256_d0_w32)
        (addi (iota .tc S2048x256 32 [1] iota_S2048x256_d1_w32) (broadcast S2048x256 w)) : IVec S2048x256 1) (ix2 p jl)
      = IntOp.cmpi .slt (BitVec.ofNat 32 p.val) (IntOp.addi (BitVec.ofNat 32 jl.val) w) := by
  show IntOp.cmpi .slt (iota .tc S2048x256 32 [0] iota_S2048x256_d0_w32 (ix2 p jl))
      (IntOp.addi (iota .tc S2048x256 32 [1] iota_S2048x256_d1_w32 (ix2 p jl)) w) = _
  rw [iota_single_apply, iota_single_apply]

/-! ## One point's store at its index -/

/-- One point's part: the accumulator plus the point's entries whose row index is below the column index. -/
theorem pay6_apply (k : ℕ) (hk : k < 8) (i : grid0.Coords) (hi : (i 0).val = k)
    (v3 : Vec Ideal S256x1024 .f32) (v11 : Vec Ideal S2048x1024 .bf16) (v41 : Vec Ideal S1x1 .f32) :
    (k0_pay6 i v3 v11 v41 : S1x1.Idx → EReal) (ix2 0 0)
      = v41 (ix2 0 0) + ∑ p : Fin 2048, ∑ jl : Fin 256,
          if p.val < jl.val + 256 * k then (k0_pay4 v3 v11 : S2048x256.Idx → EReal) (ix2 p jl) else 0 := by
  unfold k0_pay6
  rw [shapeCast_self]
  refine (addf_apply _ _ _).trans (congrArg (v41 (ix2 0 0) + ·) ?_)
  refine (shapeCast_a_1a_apply _ shapeCasts_S1_S1x1 (0 : Fin 1) (0 : Fin 1)).trans ?_
  refine (Ideal.multiReduction_add_single _ _ reduces_S2048x1_S1 _ _ _).trans ?_
  refine Finset.sum_congr rfl fun (p : Fin 2048) _ => ?_
  refine (congrArg (shapeCast S2048x1 _ shapeCasts_S2048_S2048x1) (lift_rows 0 p)).trans ?_
  refine (shapeCast_a_a1_apply _ shapeCasts_S2048_S2048x1 p (0 : Fin 1)).trans ?_
  refine (Ideal.multiReduction_add_single _ _ reduces_S2048x256_S2048 _ _ _).trans ?_
  refine Finset.sum_congr rfl fun (jl : Fin 256) _ => ?_
  refine (congrArg (select _ _ _) (lift_cols p jl)).trans ?_
  refine (select_apply _ _ _ _).trans ?_
  rw [mask_at, hi]
  have hw := mask_word p.val jl.val k p.isLt jl.isLt hk
  by_cases h : p.val < jl.val + 256 * k
  · rw [if_pos h, hw.mpr h]; exact select_one _ _
  · rw [if_neg h, eq_zero_of_ne_one (fun e => h (hw.mp e))]
    exact (select_zero _ _).trans Ideal.ofBits_zero_f32

/-! ## The points' parts, and their sum -/

/-- The entry in row p and column j of the sum above the diagonal; zero outside the leading block. -/
def triTerm (j : ℕ) (p : Fin 2048) : EReal :=
  if h : j < 2048 then
    (if p.val < j then Cert.Spec.simK (xmat m c) (Cert.Spec.up p) (Cert.Spec.up ⟨j, h⟩) else 0)
  else 0

/-- What point t adds: its 256 columns' entries above the diagonal, over all rows. -/
def part (t : ℕ) : EReal := ∑ p : Fin 2048, ∑ jl : Fin 256, triTerm m c (256 * t + jl.val) p

/-- The grid's one coordinate at point t is t. -/
theorem coords_val : ∀ t : Fin cfg0.N, ((grid0.coords t) 0).val = t.val :=
  (by decide +kernel : ∀ t : Fin grid0.N, ((grid0.coords t) 0).val = t.val)

/-- The zeroed accumulator reads zero. -/
theorem pay3_apply : (k0_pay3 (F := Ideal) : S1x1.Idx → EReal) (ix2 0 0) = 0 := by
  unfold k0_pay3
  rw [shapeCast_self]
  exact Ideal.ofBits_zero_f32

/-- A leading point's masked sum of similarities is its part of the sum above the diagonal. -/
theorem point_part (t : Fin cfg0.N) (ht : t.val < 8) :
    (∑ p : Fin 2048, ∑ jl : Fin 256,
        if p.val < jl.val + 256 * t.val then (k0_pay4 (tile m c t) (zlead m c) : S2048x256.Idx → EReal) (ix2 p jl) else 0)
      = part m c t.val := by
  unfold part
  refine Finset.sum_congr rfl fun p _ => Finset.sum_congr rfl fun jl _ => ?_
  have h : 256 * t.val + jl.val < 2048 := by have := jl.isLt; omega
  unfold triTerm
  rw [dif_pos h, sim_apply]
  have hc : col t jl = Cert.Spec.up ⟨256 * t.val + jl.val, h⟩ := Fin.ext rfl
  rw [hc]
  by_cases hp : p.val < jl.val + 256 * t.val
  · rw [if_pos hp, if_pos (by omega)]
  · rw [if_neg hp, if_neg (by omega)]

/-- After a leading point n the accumulator holds the parts of the points up to n. -/
theorem accS_lt8 : ∀ (n : ℕ) (hn : n < cfg0.N), n < 8 →
    (accS m c n hn : S1x1.Idx → EReal) (ix2 0 0) = ∑ t ∈ Finset.range (n + 1), part m c t
  | 0, hn, _ => by
    rw [accS_zero, pay6_apply 0 (by decide) _ (coords_val ⟨0, hn⟩), pay3_apply, zero_add, Finset.sum_range_one]
    exact point_part m c ⟨0, hn⟩ (show (0 : ℕ) < 8 by decide)
  | n + 1, hn, h => by
    rw [accS_succ_lt m c n hn h, pay6_apply (n + 1) h _ (coords_val ⟨n + 1, hn⟩), accS_lt8 n _ (by omega),
      Finset.sum_range_succ _ (n + 1)]
    exact congrArg _ (point_part m c ⟨n + 1, hn⟩ h)

/-- From the eighth point on the accumulator no longer changes. -/
theorem accS_ge7 : ∀ (n : ℕ) (hn : n < cfg0.N), 7 ≤ n →
    accS m c n hn = accS m c 7 (by decide)
  | 0, _, h => by omega
  | n + 1, hn, h => by
    by_cases e : n = 6
    · subst e; rfl
    · rw [accS_succ_ge m c n hn (by omega)]
      exact accS_ge7 n _ (by omega)

/-- The eight parts together are the sum above the diagonal: column j of the leading block is column j mod 256 of
    point j div 256. -/
theorem sum_parts : ∑ t ∈ Finset.range 8, part m c t = Cert.Spec.triK (xmat m c) := by
  unfold part Cert.Spec.triK
  rw [Finset.sum_comm]
  refine Finset.sum_congr rfl fun p _ => ?_
  rw [Finset.sum_range (fun t => ∑ jl : Fin 256, triTerm m c (256 * t + jl.val) p)]
  have e := (Equiv.sum_comp (finProdFinEquiv : Fin 8 × Fin 256 ≃ Fin 2048)
    (fun j : Fin 2048 => if p < j then Cert.Spec.simK (xmat m c) (Cert.Spec.up p) (Cert.Spec.up j) else 0)).symm
  rw [e, Fintype.sum_prod_type]
  refine Finset.sum_congr rfl fun t _ => Finset.sum_congr rfl fun jl _ => ?_
  have hv : ((finProdFinEquiv (t, jl) : Fin 2048) : ℕ) = jl.val + 256 * t.val := rfl
  have h : 256 * t.val + jl.val < 2048 := by have := jl.isLt; have := t.isLt; omega
  have hq : (⟨256 * t.val + jl.val, h⟩ : Fin 2048) = finProdFinEquiv (t, jl) := Fin.ext (by show 256 * t.val + jl.val = _; rw [hv]; omega)
  unfold triTerm
  rw [dif_pos h, hq]
  by_cases hp : p < (finProdFinEquiv (t, jl) : Fin 2048)
  · rw [if_pos hp, if_pos (by have := Fin.lt_def.mp hp; rw [hv] at this; omega)]
  · rw [if_neg hp, if_neg (by intro h'; exact hp (Fin.lt_def.mpr (by rw [hv]; omega)))]

end Tri

/-- After the last point the accumulator holds the sum of sim i j over i < j < 2048. -/
theorem accS_last :
    (accS m c 31 (by decide) : S1x1.Idx → EReal) (ix2 0 0) = Cert.Spec.triK (xmat m c) := by
  rw [Tri.accS_ge7 m c 31 (by decide) (by decide), Tri.accS_lt8 m c 7 _ (by decide)]
  exact Tri.sum_parts m c

end Cert.KernelIdeal.Hand

end
-- ==== Proof.Tail.lean ====
/-
  The last lines both programs share: from the 2048 denominators `D` and the sum above the diagonal `T` the loss is
  `c · (∑ i, (2047 − i) · log (D i) − T)` with `c = −2/2048 · 2047`. One function, so that neither side opens it.
-/
import Idealize.ShloMosaic.PureOps
import Idealize.ShloMosaic.Lib.StableHlo

noncomputable section

namespace Cert.Tail

open Idealize.ShloMosaic

abbrev V2048 : Shape := ⟨1, ![2048]⟩
abbrev V0 : Shape := ⟨0, ![]⟩

/-- The loss from the denominators and the triangle sum. -/
def lossOf {F : FTy → Type} [FloatOps F] (hb : V0.BroadcastsInDim V2048 (![] : Fin 0 → Fin V2048.rank)) (hr : V2048.ReducesTo [0] V0) (h0 : 0 < V0.numel)
    (D : FVec F V2048 .f32) (T : FVec F V0 .f32) : FVec F V0 .f32 :=
  mulf (constant V0 .f32 0xBFFFE000#32)
    (subf (Host.reduceAdd (mulf (sitofp .f32 (subi (broadcastInDim V2048 ![] hb (constantI V0 32 2047#32)) (iotaInDim V2048 32 0))) (Host.log D))
      (constant V0 .f32 0x00000000#32) hr h0) T)

end Cert.Tail

end
-- ==== Proof.KI.Result.lean ====
/-
  The idealized kernel's result. After the run the two result arrays hold the accumulators after the last point; the
  host operations reshape the row sums to a vector, subtract `exp 2` from each, and apply the shared last lines to
  that vector and the reshaped triangle sum. Read at an index on the extended reals, the vector is the kernel's
  denominators and the scalar its sum above the diagonal.
-/
import proofs.«127541_j44513041056397_1_alg».proof.Proof.KI.Launch
import proofs.«127541_j44513041056397_1_alg».proof.Proof.KI.FinalArrays
import proofs.«127541_j44513041056397_1_alg».proof.Proof.KI.ExpValue
import proofs.«127541_j44513041056397_1_alg».proof.Proof.KI.TriValue
import proofs.«127541_j44513041056397_1_alg».proof.Proof.Tail
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The kernel's denominators: the row sums as a vector, less `exp 2`. -/
def kerDen : FVec Ideal S2048 .f32 :=
  subf (shapeCast S2048 (accE m c 31 (by decide)) shapeCasts_S2048x1_S2048)
    (broadcastInDim S2048 ![] bcast_S_S2048 (Host.exp (constant (F := Ideal) S_ .f32 0x40000000#32)))

/-- The kernel's sum above the diagonal, as a scalar. -/
def kerTri : FVec Ideal S_ .f32 := shapeCast S_ (accS m c 31 (by decide)) shapeCasts_S1x1_S_

theorem kerDen_apply (i : Fin 2048) : (kerDen m c : S2048.Idx → EReal) (ix1 i) = Cert.Spec.denK (xmat m c) i := by
  unfold kerDen
  rw [subf_apply, shapeCast_apply (accE m c 31 (by decide)) shapeCasts_S2048x1_S2048 (ix1 i) (ix2 i 0)
    (by rw [Shape.rowMajor_val_two, Shape.rowMajor_val_one]; show i.val * 1 + 0 = i.val; omega),
    accE_last, broadcastInDim_apply ![] bcast_S_S2048 _ (ix1 i) ix0 (fun a => a.elim0)]
  rfl

theorem kerTri_apply : (kerTri m c : S_.Idx → EReal) ix0 = Cert.Spec.triK (xmat m c) := by
  unfold kerTri
  rw [shapeCast_apply (accS m c 31 (by decide)) shapeCasts_S1x1_S_ ix0 (ix2 0 0)
    (by
      rw [Shape.rowMajor_val_two]
      have h := (S_.rowMajor ix0).isLt
      have h1 : S_.numel = 1 := by simp [Shape.numel]
      have h2 : (S_.rowMajor ix0).val < 1 := Nat.lt_of_lt_of_eq h h1
      show 0 * 1 + 0 = _
      omega),
    accS_last]

/-- The result buffer's term: the shared last lines of the kernel's denominators and triangle sum. -/
theorem result_eq :
    V₂ m c (Proc.devRef .tc main_v14) = Cert.Tail.lossOf (F := Ideal) bcast_S_S2048 reducesTo_S2048_S_d0 h_S_ (kerDen m c) (kerTri m c) := by
  unfold V₂ V₁ regionOps
  after_results
  rw [arrAt2_final, arrAt3_final]
  rfl

/-- The idealized kernel's run with its result named. -/
theorem value (ρ : Dev nD → PrngReg) :
    θ_run defs (onTc (τ := τ) (main (F := Ideal))) ⟨m, fun _ => 0, ρ⟩ (fun r => ∀ c : Dev nD,
      r.2.mem ((c.tc : Thread nD τ).loc main_v14) = Cert.Tail.lossOf (F := Ideal) bcast_S_S2048 reducesTo_S2048_S_d0 h_S_ (kerDen m c) (kerTri m c)
      ∧ r.2.mem ((c.tc : Thread nD τ).loc main_arg0) = m ((c.tc : Thread nD τ).loc main_arg0)) :=
  (θ_run defs _ _).mono (fun _ h c => ⟨(h c).1.trans (result_eq m c), (h c).2⟩) (run_main m ρ)

end Cert.KernelIdeal.Hand

end
-- ==== Proof.RefValue.lean ====
/-
  The reference, read at an index. Of its run's result three things: the vector it takes logarithms of is the
  reference's denominators; the scalar it subtracts is the reference's sum above the diagonal; and the result is the
  shared last lines applied to those two.
-/
import proofs.«127541_j44513041056397_1_alg».proof.Proof.Gen.ReferenceIdeal.Run
import proofs.«127541_j44513041056397_1_alg».proof.Proof.Gen.ReferenceIdeal.Read
import proofs.«127541_j44513041056397_1_alg».proof.Proof.Spec
import proofs.«127541_j44513041056397_1_alg».proof.Proof.Tail
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The matrix an input array denotes. -/
abbrev matOf (x : (⟨S8192x1024, .f32⟩ : BufTy).Contents (Elt Ideal)) : Cert.Spec.Mat := fun r d => x (ix2 r d)

/-! ## The similarities -/

/-- A row's sum of squares: the zero word is zero, and the sum runs over the row. -/
theorem sumsq_apply (x : (⟨S8192x1024, .f32⟩ : BufTy).Contents (Elt Ideal)) (p : Fin 8192) :
    val_main_call0_v1 (F := Ideal) x (ix1 p) = Cert.Spec.sumsq (matOf x) p := by
  rw [val_main_call0_v1_apply, val_main_call0_cst_apply, Ideal.ofBits_def, Ideal.ofBits_zero_f32, zero_add]
  unfold Cert.Spec.sumsq
  refine Finset.sum_congr rfl fun k _ => ?_
  have e : idx_main_call0_v1 (ix1 p) k = ix2 p k :=
    funext fun a => Fin.ext (by match a with | ⟨0, _⟩ => rfl | ⟨1, _⟩ => rfl)
  rw [val_main_call0_v0_apply, e, Ideal.mulf_def]

/-- An entry over the square root of its row's sum of squares. -/
theorem unit_apply (x : (⟨S8192x1024, .f32⟩ : BufTy).Contents (Elt Ideal)) (p : Fin 8192) (q : Fin 1024) :
    val_main_v2 (F := Ideal) x (ix2 p q) = Cert.Spec.unitR (matOf x) p q := by
  have e : idx_main_call0_v2 (idx_main_v1 (ix2 p q)) = ix1 p :=
    funext fun a => Fin.ext (by match a with | ⟨0, _⟩ => rfl)
  rw [val_main_v2_apply, val_main_v1_apply, val_main_v0_apply, val_main_call0_v2_apply, e, sumsq_apply,
    Ideal.hostDivf_def, Ideal.hostUnary_sqrt_def]
  rfl

/-- The inner product of two unit rows over one half. -/
theorem sim_apply (x : (⟨S8192x1024, .f32⟩ : BufTy).Contents (Elt Ideal)) (i j : Fin 8192) :
    val_main_v6 (F := Ideal) x (ix2 i j) = Cert.Spec.simR (matOf x) i j := by
  rw [val_main_v6_apply, val_main_v4_apply, val_main_v5_apply, val_main_cst_apply, Ideal.hostDivf_def, Ideal.ofBits_def]
  unfold Cert.Spec.simR
  refine congrArg (fun s => Ideal.div s Cert.Spec.half) (Finset.sum_congr rfl fun k _ => ?_)
  have el : lidx_main_v4 (ix2 i j) k = ix2 i k :=
    funext fun a => Fin.ext (by match a with | ⟨0, _⟩ => rfl | ⟨1, _⟩ => rfl)
  have er : idx_main_v3 (ridx_main_v4 (ix2 i j) k) = ix2 j k :=
    funext fun a => Fin.ext (by match a with | ⟨0, _⟩ => rfl | ⟨1, _⟩ => rfl)
  rw [val_main_v3_apply, el, er, unit_apply, unit_apply]

/-- The exponential of a similarity in one of the first 2048 rows. -/
theorem exp_apply (x : (⟨S8192x1024, .f32⟩ : BufTy).Contents (Elt Ideal)) (i : Fin 2048) (j : Fin 8192) :
    val_main_v9 (F := Ideal) x (ix2 i j) = Ideal.exp (Cert.Spec.simR (matOf x) (Cert.Spec.up i) j) := by
  have e : idx_main_v7 (ix2 i j) = ix2 (Cert.Spec.up i) j :=
    funext fun a => Fin.ext (by match a with | ⟨0, _⟩ => rfl | ⟨1, _⟩ => rfl)
  rw [val_main_v9_apply, val_main_v7_apply, e, sim_apply, Ideal.hostUnary_exp_def]

/-- A row's sum of exponentials over all 8192 columns. -/
theorem rowsum_apply (x : (⟨S8192x1024, .f32⟩ : BufTy).Contents (Elt Ideal)) (i : Fin 2048) :
    val_main_v10 (F := Ideal) x (ix1 i) = Cert.Spec.rowExpR (matOf x) i := by
  rw [val_main_v10_apply, val_main_cst_0_apply, Ideal.ofBits_def, Ideal.ofBits_zero_f32, zero_add]
  unfold Cert.Spec.rowExpR
  refine Finset.sum_congr rfl fun k _ => ?_
  have e : idx_main_v10 (ix1 i) k = ix2 i k :=
    funext fun a => Fin.ext (by match a with | ⟨0, _⟩ => rfl | ⟨1, _⟩ => rfl)
  rw [e, exp_apply]

/-! ## The diagonal the gather reads -/

/-- A row number below 2048, as a 32-bit word, is not negative: the signed comparison with zero fails. -/
theorem iota_not_neg (i : Fin 2048) : IntOp.cmpi .slt (BitVec.ofNat 32 i.val) 0#32 = 0#1 := by
  refine eq_zero_of_ne_one fun h => ?_
  have hi : (BitVec.ofNat 32 i.val).toNat = i.val := by
    rw [BitVec.toNat_ofNat]; exact Nat.mod_eq_of_lt (by have := i.isLt; omega)
  have := (StableHlo.Predicate.slt_iff_toNat (a := BitVec.ofNat 32 i.val) (b := 0#32)
    (by rw [hi]; have := i.isLt; omega) (by decide)).mp h
  simp at this

/-- The row coordinates: the wrap-around of negative row numbers never applies, so they are the row numbers. -/
theorem rowcoord_apply (i : Fin 2048) : val_main_v15 (F := Ideal) (ix1 i) = BitVec.ofNat 32 i.val := by
  rw [val_main_v15_apply, val_main_v12_apply, val_main_v11_apply, val_main_c_apply, val_main_v8_apply]
  show Scalar.select (IntOp.cmpi .slt (BitVec.ofNat 32 i.val) 0#32) _ _ = _
  rw [iota_not_neg, select_zero]

/-- The column coordinates, likewise. -/
theorem colcoord_apply (i : Fin 2048) : val_main_v20 (F := Ideal) (ix1 i) = BitVec.ofNat 32 i.val := by
  rw [val_main_v20_apply, val_main_v17_apply, val_main_v16_apply, val_main_c_2_apply, val_main_v8_apply]
  show Scalar.select (IntOp.cmpi .slt (BitVec.ofNat 32 i.val) 0#32) _ _ = _
  rw [iota_not_neg, select_zero]

/-- The index pairs: both entries of pair `i` are `i`. -/
theorem pair_apply0 (i : Fin 2048) : val_main_v23 (F := Ideal) (ix2 i (0 : Fin 2)) = BitVec.ofNat 32 i.val := by
  unfold val_main_v23
  rw [concatenate_pair_apply_left (1 : Fin S2048x2.rank) _ _ concatenates_S2048x1_S2048x1_S2048x2_d1
    (ix2 i (0 : Fin 2)) rfl (ix2 i (0 : Fin 1)) (fun b => by match b with | ⟨0, _⟩ => rfl | ⟨1, _⟩ => rfl)]
  have e : idx_main_v21 (ix2 i (0 : Fin 1)) = ix1 i := funext fun a => Fin.ext (by match a with | ⟨0, _⟩ => rfl)
  rw [val_main_v21_apply, e, rowcoord_apply]

theorem pair_apply1 (i : Fin 2048) : val_main_v23 (F := Ideal) (ix2 i (1 : Fin 2)) = BitVec.ofNat 32 i.val := by
  unfold val_main_v23
  rw [concatenate_pair_apply_right (1 : Fin S2048x2.rank) _ _ concatenates_S2048x1_S2048x1_S2048x2_d1
    (ix2 i (1 : Fin 2)) rfl rfl (ix2 i (0 : Fin 1))
    (fun b hb => by match b with | ⟨0, _⟩ => rfl | ⟨1, _⟩ => exact absurd rfl hb) rfl]
  have e : idx_main_v22 (ix2 i (0 : Fin 1)) = ix1 i := funext fun a => Fin.ext (by match a with | ⟨0, _⟩ => rfl)
  rw [val_main_v22_apply, e, colcoord_apply]

/-- The gather's dimension numbers. -/
abbrev gD : GatherDims S2048x8192 S2048x2 S2048 := gather_S2048x8192_S2048x2_S2048_n_01_n_n_01_1_11

/-- Where result index `i` reads component `c` of its start index: pair `i`, entry `c`. -/
theorem gather_si0 (i : Fin 2048) (h : List.idxOf (0 : Fin S2048x8192.rank) gD.startIndexMap < gD.startIndexMap.length) :
    gD.siIdx (ix1 i) ⟨List.idxOf (0 : Fin S2048x8192.rank) gD.startIndexMap, h⟩ = ix2 i (0 : Fin 2) := by
  funext b; refine Fin.ext ?_
  match b with
  | ⟨0, _⟩ => rfl
  | ⟨1, _⟩ => rfl

theorem gather_si1 (i : Fin 2048) (h : List.idxOf (1 : Fin S2048x8192.rank) gD.startIndexMap < gD.startIndexMap.length) :
    gD.siIdx (ix1 i) ⟨List.idxOf (1 : Fin S2048x8192.rank) gD.startIndexMap, h⟩ = ix2 i (1 : Fin 2) := by
  funext b; refine Fin.ext ?_
  match b with
  | ⟨0, _⟩ => rfl
  | ⟨1, _⟩ => rfl

/-- The row the gather reads for result `i`: the first entry of pair `i`, read signed and clamped into the rows. -/
theorem gather_row (idx : IVec S2048x2 32) (i : Fin 2048) :
    (gD.operandIdx (ix1 i) idx 0).val = min (idx (ix2 i (0 : Fin 2))).toInt.toNat 2047 := by
  show gD.start (ix1 i) idx 0 + gD.batchCoord (ix1 i) 0 + gD.offCoord (ix1 i) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S2048x8192.rank) ∈ gD.startIndexMap by decide), gather_si0]
  rfl

/-- The column it reads: the second entry, clamped into the columns. -/
theorem gather_col (idx : IVec S2048x2 32) (i : Fin 2048) :
    (gD.operandIdx (ix1 i) idx 1).val = min (idx (ix2 i (1 : Fin 2))).toInt.toNat 8191 := by
  show gD.start (ix1 i) idx 1 + gD.batchCoord (ix1 i) 1 + gD.offCoord (ix1 i) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S2048x8192.rank) ∈ gD.startIndexMap by decide), gather_si1]
  rfl

/-- A row number below 2048 read back from its word, signed. -/
theorem toInt_toNat_ofNat (i : Fin 2048) : (BitVec.ofNat 32 i.val).toInt.toNat = i.val := by
  rw [StableHlo.Predicate.toInt_ofNat_small i.val (by have := i.isLt; omega)]
  rfl

/-- The gather reads the diagonal: result `i` is the exponential of row `i`'s similarity with itself. Both
    coordinates are in range, so the clamps are the identity. -/
theorem diag_apply (x : (⟨S8192x1024, .f32⟩ : BufTy).Contents (Elt Ideal)) (i : Fin 2048) :
    val_main_v24 (F := Ideal) x (ix1 i)
      = Ideal.exp (Cert.Spec.simR (matOf x) (Cert.Spec.up i) (Cert.Spec.up i)) := by
  have e : gD.operandIdx (ix1 i) (val_main_v23 (F := Ideal)) = ix2 i (Cert.Spec.up i) := by
    funext a; refine Fin.ext ?_
    match a with
    | ⟨0, _⟩ =>
      refine (gather_row _ i).trans ?_
      rw [pair_apply0, toInt_toNat_ofNat]
      exact Nat.min_eq_left (by have := i.isLt; omega)
    | ⟨1, _⟩ =>
      refine (gather_col _ i).trans ?_
      rw [pair_apply1, toInt_toNat_ofNat]
      exact Nat.min_eq_left (by have := i.isLt; omega)
  show val_main_v9 (F := Ideal) x (gD.operandIdx (ix1 i) (val_main_v23 (F := Ideal))) = _
  rw [e, exp_apply]

/-- The vector under the logarithm is the reference's denominators: each row's sum of exponentials less the entry
    the gather reads on the diagonal. -/
theorem den_apply (x : (⟨S8192x1024, .f32⟩ : BufTy).Contents (Elt Ideal)) (i : Fin 2048) :
    val_main_v25 (F := Ideal) x (ix1 i) = Cert.Spec.denR (matOf x) i := by
  rw [val_main_v25_apply, rowsum_apply, diag_apply, Ideal.subf_def]
  rfl

/-! ## The sum above the diagonal -/

/-- A row or column number below 2048 as a word has that value. -/
theorem toNat_ofNat_small (i : Fin 2048) : (BitVec.ofNat 32 i.val).toNat = i.val := by
  rw [BitVec.toNat_ofNat]; exact Nat.mod_eq_of_lt (by have := i.isLt; omega)

/-- The mask of the entries on or below the diagonal: row number (plus the offset zero) at least the column number,
    as signed words; both are small, so they compare as their values. -/
theorem lower_mask_apply (i j : Fin 2048) :
    val_main_call1_v4 (F := Ideal) (ix2 i j) = 1#1 ↔ j.val ≤ i.val := by
  rw [val_main_call1_v4_apply, val_main_call1_v2_apply, val_main_call1_v0_apply, val_main_call1_v1_apply,
    val_main_call1_c_apply, val_main_call1_v3_apply]
  show IntOp.cmpi .sge (IntOp.addi (BitVec.ofNat 32 i.val) 0#32) (BitVec.ofNat 32 j.val) = 1#1 ↔ _
  have h0 : IntOp.addi (BitVec.ofNat 32 i.val) 0#32 = BitVec.ofNat 32 i.val := by
    unfold IntOp.addi; exact BitVec.add_zero _
  rw [h0, StableHlo.Predicate.sge_iff_toNat (by rw [toNat_ofNat_small]; have := i.isLt; omega)
    (by rw [toNat_ofNat_small]; have := j.isLt; omega), toNat_ofNat_small, toNat_ofNat_small]

/-- An entry of the leading block. -/
theorem block_apply (x : (⟨S8192x1024, .f32⟩ : BufTy).Contents (Elt Ideal)) (i j : Fin 2048) :
    val_main_v29 (F := Ideal) x (ix2 i j) = Cert.Spec.simR (matOf x) (Cert.Spec.up i) (Cert.Spec.up j) := by
  have e : idx_main_v7 (idx_main_v29 (ix2 i j)) = ix2 (Cert.Spec.up i) (Cert.Spec.up j) :=
    funext fun a => Fin.ext (by match a with | ⟨0, _⟩ => rfl | ⟨1, _⟩ => rfl)
  rw [val_main_v29_apply, val_main_v7_apply, e, sim_apply]

/-- The block with everything on or below the diagonal replaced by zero. -/
theorem upper_apply (x : (⟨S8192x1024, .f32⟩ : BufTy).Contents (Elt Ideal)) (i j : Fin 2048) :
    val_main_v30 (F := Ideal) x (ix2 i j)
      = if i < j then Cert.Spec.simR (matOf x) (Cert.Spec.up i) (Cert.Spec.up j) else 0 := by
  rw [val_main_v30_apply]
  by_cases h : i < j
  · have hm : val_main_call1_v4 (F := Ideal) (ix2 i j) = 0#1 :=
      eq_zero_of_ne_one fun h1 => by
        have := (lower_mask_apply i j).mp h1
        have := Fin.lt_def.mp h
        omega
    rw [hm, select_zero, block_apply, if_pos h]
  · have hm : val_main_call1_v4 (F := Ideal) (ix2 i j) = 1#1 :=
      (lower_mask_apply i j).mpr (by have := Fin.lt_def.not.mp h; omega)
    rw [hm, select_one, val_main_call1_v5_apply, val_main_call1_cst_apply, Ideal.ofBits_def, Ideal.ofBits_zero_f32,
      if_neg h]

/-- The subtracted scalar is the sum of the similarities strictly above the diagonal. -/
theorem tri_apply (x : (⟨S8192x1024, .f32⟩ : BufTy).Contents (Elt Ideal)) :
    val_main_v31 (F := Ideal) x ix0 = Cert.Spec.triR (matOf x) := by
  rw [val_main_v31_apply, val_main_cst_5_apply, Ideal.ofBits_def, Ideal.ofBits_zero_f32, zero_add, sum_idx2]
  unfold Cert.Spec.triR
  exact Finset.sum_congr rfl fun i _ => Finset.sum_congr rfl fun j _ => upper_apply x i j

/-- The result is the shared last lines of those two. -/
theorem result_eq (x : (⟨S8192x1024, .f32⟩ : BufTy).Contents (Elt Ideal)) :
    val_main_v36 (F := Ideal) x
      = Cert.Tail.lossOf (F := Ideal) bcast_S_S2048 reducesTo_S2048_S_d0 h_S_ (val_main_v25 (F := Ideal) x) (val_main_v31 (F := Ideal) x) := by
  unfold val_main_v36 val_main_v35 val_main_v34 val_main_v33 val_main_v32 val_main_v28 val_main_v27 val_main_c_4
    val_main_v26 val_main_cst_6 val_main_cst_7 val_main_v8 Cert.Tail.lossOf
  rfl

end Cert.ReferenceIdeal.RefValue

end
-- ==== Proof.SpecLaws.lean ====
/-
  On a matrix of reals with no zero row the kernel's and the reference's ways of computing agree.
-/
import proofs.«127541_j44513041056397_1_alg».proof.Proof.Spec

noncomputable section

namespace Cert.Spec

open Idealize.ShloMosaic

/-- The two binary32 words are the reals 2 and 1/2. -/
theorem two_eq : two = ((2 : ℝ) : EReal) := by
  simp [Ideal.ofBits, Ideal.ieee, -EReal.coe_mul]; norm_num

theorem half_eq : half = ((1 / 2 : ℝ) : EReal) := by
  simp [Ideal.ofBits, Ideal.ieee, -EReal.coe_mul]; norm_num

/-- The coercion of the reals into the extended reals goes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Real

/- A matrix of reals `x` under `X`; `sumsqRe x r` is row `r`'s sum of squares as a real, `unitRe x r d` the unit row's entry. -/
variable (X : Mat) (x : Fin 8192 → Fin 1024 → ℝ)

/-- A row's sum of squares, over the reals. -/
def sumsqRe (r : Fin 8192) : ℝ := ∑ d : Fin 1024, x r d * x r d

/-- A unit row's entry, over the reals. -/
def unitRe (r : Fin 8192) (d : Fin 1024) : ℝ := x r d * (Real.sqrt (sumsqRe x r))⁻¹

/-- The inner product of two unit rows, over the reals. -/
theorem inner_coe (f g : Fin 8192 → Fin 1024 → EReal)
    (hf : ∀ r d, f r d = ((unitRe x r d : ℝ) : EReal)) (hg : ∀ r d, g r d = ((unitRe x r d : ℝ) : EReal)) (i j : Fin 8192) :
    (∑ d : Fin 1024, f i d * g j d) = ((∑ d : Fin 1024, unitRe x i d * unitRe x j d : ℝ) : EReal) := by
  rw [coe_sum]
  exact Finset.sum_congr rfl fun d _ => by rw [hf i d, hg j d, EReal.coe_mul]

variable {X x} (hx : ∀ r d, X r d = (x r d : EReal))
include hx

theorem sumsq_coe (r : Fin 8192) : sumsq X r = ((sumsqRe x r : ℝ) : EReal) := by
  rw [sumsq, sumsqRe, coe_sum]
  exact Finset.sum_congr rfl fun d _ => by rw [hx r d, EReal.coe_mul]

theorem sumsqRe_pos (h : Admissible X) (r : Fin 8192) : 0 < sumsqRe x r := by
  have := h.pos r
  rw [sumsq_coe hx r] at this
  exact_mod_cast this

theorem unitK_coe (h : Admissible X) (r : Fin 8192) (d : Fin 1024) : unitK X r d = ((unitRe x r d : ℝ) : EReal) := by
  have hs := sumsqRe_pos hx h r
  rw [unitK, sumsq_coe hx r, Ideal.rsqrt_coe, if_neg (not_lt.mpr hs.le), if_neg hs.ne', hx r d, ← EReal.coe_mul, unitRe]

theorem unitR_coe (h : Admissible X) (r : Fin 8192) (d : Fin 1024) : unitR X r d = ((unitRe x r d : ℝ) : EReal) := by
  have hs := sumsqRe_pos hx h r
  have hq : Real.sqrt (sumsqRe x r) ≠ 0 := (Real.sqrt_pos.mpr hs).ne'
  rw [unitR, sumsq_coe hx r, Ideal.sqrt_coe, if_neg (not_lt.mpr hs.le), Ideal.div_coe hq, hx r d, ← EReal.coe_mul,
    one_div, unitRe]

theorem simK_coe (h : Admissible X) (i j : Fin 8192) :
    simK X i j = (((∑ d : Fin 1024, unitRe x i d * unitRe x j d) * 2 : ℝ) : EReal) := by
  rw [simK, inner_coe x (unitK X) (unitK X) (unitK_coe hx h) (unitK_coe hx h), two_eq, ← EReal.coe_mul]

theorem simR_coe (h : Admissible X) (i j : Fin 8192) :
    simR X i j = (((∑ d : Fin 1024, unitRe x i d * unitRe x j d) * 2 : ℝ) : EReal) := by
  rw [simR, inner_coe x (unitR X) (unitR X) (unitR_coe hx h) (unitR_coe hx h), half_eq,
    Ideal.div_coe (by norm_num : (1 / 2 : ℝ) ≠ 0), ← EReal.coe_mul]
  norm_num

/-- A unit row's inner product with itself is one: `∑ (x_d (√s)⁻¹)² = s · (√s)⁻² = 1`. -/
theorem inner_self (h : Admissible X) (r : Fin 8192) : (∑ d : Fin 1024, unitRe x r d * unitRe x r d) = 1 := by
  have hs := sumsqRe_pos hx h r
  have hq : Real.sqrt (sumsqRe x r) * Real.sqrt (sumsqRe x r) = sumsqRe x r := Real.mul_self_sqrt hs.le
  have e : ∀ d : Fin 1024, unitRe x r d * unitRe x r d = (x r d * x r d) * (sumsqRe x r)⁻¹ := fun d => by
    rw [unitRe, mul_mul_mul_comm, ← mul_inv, hq]
  rw [Finset.sum_congr rfl fun d _ => e d, ← Finset.sum_mul]
  exact mul_inv_cancel₀ hs.ne'

theorem simR_diag (h : Admissible X) (r : Fin 8192) : simR X r r = two := by
  rw [simR_coe hx h, inner_self hx h r, two_eq, one_mul]

end Real

theorem sim_eq (X : Mat) (h : Admissible X) (i j : Fin 8192) : simR X i j = simK X i j := by
  choose x hx using h.real
  rw [simR_coe hx h, simK_coe hx h]

theorem rowExp_eq (X : Mat) (h : Admissible X) (i : Fin 2048) : rowExpR X i = rowExpK X i :=
  Finset.sum_congr rfl fun j _ => by rw [sim_eq X h]

/-- The denominators agree: the row sums are sums of the same numbers, and the reference's diagonal entry is
    `exp` of twice a unit row's inner product with itself, which is `exp 2`. -/
theorem den_eq (X : Mat) (h : Admissible X) (i : Fin 2048) : denR X i = denK X i := by
  choose x hx using h.real
  rw [denR, denK, rowExp_eq X h, simR_diag hx h]

/-- The sums above the diagonal agree, term by term. -/
theorem tri_eq (X : Mat) (h : Admissible X) : triR X = triK X :=
  Finset.sum_congr rfl fun i _ => Finset.sum_congr rfl fun j _ => by rw [sim_eq X h]

end Cert.Spec

end
-- ==== Proof.PreFacts.lean ====
/-
  What the precondition says: every entry of the input is finite, so a real number, and every row's sum of squares is
  positive, so no row is zero.

  The printed predicate is the conjunction of two "for all" statements, each a reduction by "and" from the constant one.
  The first ranges over every entry and compares its absolute value, max a (-a), with the binary32 word of plus infinity,
  which is the top element of the extended reals: an extended real whose absolute value is below top is neither top nor
  bottom, so it is a real number. The second ranges over the rows and compares the row's sum of the squares, taken from
  the zero word, with the zero word: the sum over the 1024 columns of a * a is positive.
-/
import proofs.«127541_j44513041056397_1_alg».proof.Pre_finite_inputs
import proofs.«127541_j44513041056397_1_alg».proof.Proof.Spec
import Idealize.ShloMosaic.Lib.ReduceAll
import Idealize.ShloMosaic.Lib.ValueIdx
import Idealize.ShloMosaic.Lib.IdealHost
import Idealize.ShloMosaic.PureOps.Ideal.Laws

noncomputable section

namespace Cert.PreFacts

open Idealize.ShloMosaic Idealize.ShloMosaic.ValueIdx

/-- The scalar shape has one index. -/
theorem subsingleton_scalar_idx : Subsingleton Cert.Pre_finite_inputs.S_.Idx :=
  ⟨fun _ _ => funext fun d => d.elim0⟩

/-- The binary32 word of plus infinity is the top element. -/
theorem ofBits_inf : Ideal.ofBits .f32 0x7F800000#32 = (⊤ : EReal) := by simp [Ideal.ofBits, Ideal.ieee]

/-- An extended real whose absolute value is below plus infinity is a real number: the absolute value of top and of
    bottom is top. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => exact absurd h (by simp [Ideal.cmp])
  | coe r => exact ⟨r, rfl⟩
  | top => exact absurd h (by simp [Ideal.cmp])

/-- "Greater than the zero word" came out one: the left side is positive. -/
theorem pos_of_ogt_zero (a : EReal)
    (h : Ideal.cmp .ogt a (Ideal.ofBits .f32 0x00000000#32) = 1#1) : 0 < a := by
  rw [Ideal.ofBits_zero_f32] at h
  by_contra hn
  exact absurd h (by simp [Ideal.cmp, hn])

/-- The printed precondition, all ones, makes the input's matrix admissible. -/
theorem admissible_of_pre [Cert.Pre_finite_inputs.Facts] (x : FVec Ideal Cert.Pre_finite_inputs.S8192x1024 .f32)
    (h : Cert.Pre_finite_inputs.fn (F := Ideal) x = fun _ => 1#1) :
    Cert.Spec.Admissible (fun r d => x (ix2 r d)) := by
  haveI := subsingleton_scalar_idx
  -- the predicate at its one index: the "and" of the two reductions is one, so each is
  have h0 := congrFun h ix0
  dsimp only [Cert.Pre_finite_inputs.fn] at h0
  obtain ⟨hA, hB⟩ := IntOp.andi_eq_one.1 h0
  -- a reduction by "and" that is one met a one at every index
  have hfin : ∀ i, cmpf .olt (Host.absf x)
      (broadcastInDim Cert.Pre_finite_inputs.S8192x1024 ![] Cert.Pre_finite_inputs.Facts.bcast_S_S8192x1024
        (constant Cert.Pre_finite_inputs.S_ .f32 0x7F800000#32)) i = 1#1 :=
    fun i => Host.reduce_andi_all _ _ _ _ _ hA i
  have hpos : ∀ j, cmpf .ogt
      (Host.reduceAdd (mulf x x) (constant (F := Ideal) Cert.Pre_finite_inputs.S_ .f32 0x00000000#32)
        Cert.Pre_finite_inputs.Facts.reducesTo_S8192x1024_S8192_d1 Cert.Pre_finite_inputs.Facts.h_S_)
      (broadcastInDim Cert.Pre_finite_inputs.S8192 ![] Cert.Pre_finite_inputs.Facts.bcast_S_S8192
        (constant Cert.Pre_finite_inputs.S_ .f32 0x00000000#32)) j = 1#1 :=
    fun j => Host.reduce_andi_all _ _ _ _ _ hB j
  refine ⟨fun r d => ?_, fun r => ?_⟩
  · -- entry (r, d): |x| < +∞
    have he := hfin (ix2 r d)
    rw [cmpf_apply, broadcastInDim_scalar_apply, constant_apply] at he
    exact real_of_abs_lt_inf _ he
  · -- row r: 0 < 0 + ∑ k, x (r, k) * x (r, k)
    have hr := hpos (ix1 r)
    rw [cmpf_apply, broadcastInDim_scalar_apply, constant_apply, hostReduceAdd_apply, constant_apply] at hr
    have hp := pos_of_ogt_zero _ hr
    rw [Ideal.hostReduceAdd_single Cert.Pre_finite_inputs.Facts.reducesTo_S8192x1024_S8192_d1 (by decide),
      Ideal.ofBits_zero_f32, zero_add] at hp
    unfold Cert.Spec.sumsq
    refine lt_of_lt_of_eq hp (Finset.sum_congr rfl fun k _ => ?_)
    rw [mulf_apply]
    -- the index the sum over axis 1 reads at column k of row r is (r, k)
    have hi : (Shape.Reduces.lift (s := Cert.Pre_finite_inputs.S8192x1024) (t := Cert.Pre_finite_inputs.S8192)
        (by decide) (ix1 r) k) = ix2 r k :=
      funext fun a => Fin.ext (by match a with | ⟨0, _⟩ => rfl | ⟨1, _⟩ => rfl)
    rw [hi]
    rfl

end Cert.PreFacts

end
-- ==== Proof.lean ====
/-
  A contrastive loss over 8192 rows of 1024 numbers. Rows are scaled to unit length, `sim i j` is twice the inner
  product of rows `i` and `j`, and with `n = 2048` the loss is
  `c · (∑ i < n, (n − 1 − i) · log (∑ j, exp (sim i j) − exp (sim i i)) − ∑ i < j < n, sim i j)`, `c = −2 (n − 1) / n`.

  The kernel walks the 8192 rows in 32 blocks of 256, keeping the first `n` rows, normalised, in scratch: each
  block adds its 256 exponentials to every row sum, the first eight blocks add their entries above the diagonal to
  the triangle sum, and it takes the diagonal term to be `exp 2`, a unit row's inner product with itself being one.
  The reference computes the whole 8192 × 8192 matrix and reads the diagonal off it. On an input of finite numbers
  with no zero row — a zero row has no unit multiple — the two agree on the extended reals: the normalisations agree
  (`x · (√s)⁻¹ = x / √s` for `s > 0`), the row sums are the same finite sums regrouped, the diagonal entry is
  `exp (2 · s / s) = exp 2`, and both programs end with the same last lines.

  The frames: the kernel region runs to its end at every one of the 32 points and leaves the input array, which two of
  its windows read at once, untouched, at both instances; the reference is straight-line.
-/
import proofs.«127541_j44513041056397_1_alg».proof.Defs
import proofs.«127541_j44513041056397_1_alg».proof.Proof.Gen.Kernel
import proofs.«127541_j44513041056397_1_alg».proof.Proof.Gen.KernelIdeal
import proofs.«127541_j44513041056397_1_alg».proof.Proof.Gen.ReferenceIdeal
import proofs.«127541_j44513041056397_1_alg».proof.Proof.Gen.Pre_finite_inputs
import proofs.«127541_j44513041056397_1_alg».proof.Proof.Gen.ReferenceIdeal.Run
import proofs.«127541_j44513041056397_1_alg».proof.Proof.Gen.ReferenceIdeal.Read
import proofs.«127541_j44513041056397_1_alg».proof.Proof.K.Launch
import proofs.«127541_j44513041056397_1_alg».proof.Proof.KI.Result
import proofs.«127541_j44513041056397_1_alg».proof.Proof.RefValue
import proofs.«127541_j44513041056397_1_alg».proof.Proof.SpecLaws
import proofs.«127541_j44513041056397_1_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

section Claims

variable [hK : Cert.Kernel.Facts] [hKI : Cert.KernelIdeal.Facts] [hR : Cert.ReferenceIdeal.Facts] [hP : Cert.Pre_finite_inputs.Facts]

/-- The word-level kernel runs and leaves the input as it was. -/
theorem frame_p : Cert.frame_Kernel := fun m ρ _ =>
  (θ_run Cert.Kernel.defs _ _).mono (fun _ h c => (h c).2) (Cert.Kernel.Hand.run_main (F := Bits) m ρ)

/-- So does the idealized kernel. -/
theorem frame_pi : Cert.frame_KernelIdeal := fun m ρ _ =>
  (θ_run Cert.KernelIdeal.defs _ _).mono (fun _ h c => (h c).2) (Cert.KernelIdeal.Hand.run_main (F := Ideal) m ρ)

/-- The reference is a line of host operations. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On an admissible input the two programs end with the same loss: the same last lines of equal denominators and
    equal triangle sums. -/
theorem algebraic : Cert.algebraic_KernelIdeal_ReferenceIdeal := by
  intro m ρ m' ρ' hpre hagree
  refine ⟨_, Cert.KernelIdeal.Hand.value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq, hagree c]
  have hadm := Cert.PreFacts.admissible_of_pre _ (hpre c)
  have hD : Cert.ReferenceIdeal.Read.val_main_v25 (F := Ideal) (m ((c.tc : Thread Cert.KernelIdeal.nD Cert.KernelIdeal.τ).loc Cert.KernelIdeal.main_arg0))
      = Cert.KernelIdeal.Hand.kerDen m c := funext fun j => by
    obtain ⟨i, rfl⟩ : ∃ i : Fin 2048, j = ix1 i := ⟨j 0, eq_ix1 j⟩
    rw [Cert.ReferenceIdeal.RefValue.den_apply, Cert.KernelIdeal.Hand.kerDen_apply]
    exact Cert.Spec.den_eq _ hadm i
  have hT : Cert.ReferenceIdeal.Read.val_main_v31 (F := Ideal) (m ((c.tc : Thread Cert.KernelIdeal.nD Cert.KernelIdeal.τ).loc Cert.KernelIdeal.main_arg0))
      = Cert.KernelIdeal.Hand.kerTri m c := funext fun j => by
    rw [eq_ix0 j, Cert.ReferenceIdeal.RefValue.tri_apply, Cert.KernelIdeal.Hand.kerTri_apply]
    exact Cert.Spec.tri_eq _ hadm
  rw [hD, hT]

end Claims

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
